-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S8 : Shape := ⟨1, ![8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x12 : S_.BroadcastsInDim S16x12 (![] : Fin 0 → Fin S16x12.rank)
  reducesTo_S16x12_S_d0_1 : S16x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S4x1 .f32) (main_cst_32 : FVec F S_ .f32) : IVec S_ 1 :=
  let main_v85 : FVec F S4x1 .f32 := broadcastInDim S4x1 ![] bcast_S_S4x1 main_cst_32
  let main_v86 : IVec S4x1 1 := cmpf .olt main_v84 main_v85
  let main_c_33 : IVec S_ 1 := constantI S_ 1 1#1
  let main_v87 : IVec S_ 1 := (fun x v => Host.reduce IntOp.andi x v reducesTo_S4x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S4 .f32) (main_arg15 : FVec F S4x4 .f32) (main_arg16 : FVec F S4 .f32) (main_arg17 : FVec F S4x1 .f32) (main_arg18 : FVec F S1 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S4x4 .f32 := Host.absf main_arg15
  let main_cst_28 : FVec F S_ .f32 := constant S_ .f32 0x7F800000#32
  let main_v75 : FVec F S4x4 .f32 := broadcastInDim S4x4 ![] bcast_S_S4x4 main_cst_28
  let main_v76 : IVec S4x4 1 := cmpf .olt main_v74 main_v75
  let main_c_29 : IVec S_ 1 := constantI S_ 1 1#1
  let main_v77 : IVec S_ 1 := (fun x v => Host.reduce IntOp.andi x v reducesTo_S4x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x4 .f32 := Host.absf main_arg11
  let main_cst_20 : FVec F S_ .f32 := constant S_ .f32 0x7F800000#32
  let main_v55 : FVec F S8x4 .f32 := broadcastInDim S8x4 ![] bcast_S_S8x4 main_cst_20
  let main_v56 : IVec S8x4 1 := cmpf .olt main_v54 main_v55
  let main_c_21 : IVec S_ 1 := constantI S_ 1 1#1
  let main_v57 : IVec S_ 1 := (fun x v => Host.reduce IntOp.andi x v reducesTo_S8x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x4 .f32 := Host.absf main_arg13
  let main_cst_24 : FVec F S_ .f32 := constant S_ .f32 0x7F800000#32
  let main_v65 : FVec F S4x4 .f32 := broadcastInDim S4x4 ![] bcast_S_S4x4 main_cst_24
  let main_v66 : IVec S4x4 1 := cmpf .olt main_v64 main_v65
  let main_c_25 : IVec S_ 1 := constantI S_ 1 1#1
  let main_v67 : IVec S_ 1 := (fun x v => Host.reduce IntOp.andi x v reducesTo_S4x4_S_d0_1 h_S_) main_v66 main_c_25
  fn_part4 (F := F) main_arg14 main_arg15 main_arg16 main_arg17 main_arg18 main_v63 main_v67

def fn_part2 {F : FTy → Type} [FloatOps F] (main_arg7 : FVec F S16x12 .f32) (main_arg8 : FVec F S12 .f32) (main_arg9 : FVec F S12x8 .f32) (main_arg10 : FVec F S8 .f32) (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) (main_v33 : IVec S_ 1) : IVec S_ 1 :=
  let main_v34 : FVec F S16x12 .f32 := Host.absf main_arg7
  let main_cst_12 : FVec F S_ .f32 := constant S_ .f32 0x7F800000#32
  let main_v35 : FVec F S16x12 .f32 := broadcastInDim S16x12 ![] bcast_S_S16x12 main_cst_12
  let main_v36 : IVec S16x12 1 := cmpf .olt main_v34 main_v35
  let main_c_13 : IVec S_ 1 := constantI S_ 1 1#1
  let main_v37 : IVec S_ 1 := (fun x v => Host.reduce IntOp.andi x v reducesTo_S16x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S12x8 .f32 := Host.absf main_arg9
  let main_cst_16 : FVec F S_ .f32 := constant S_ .f32 0x7F800000#32
  let main_v45 : FVec F S12x8 .f32 := broadcastInDim S12x8 ![] bcast_S_S12x8 main_cst_16
  let main_v46 : IVec S12x8 1 := cmpf .olt main_v44 main_v45
  let main_c_17 : IVec S_ 1 := constantI S_ 1 1#1
  let main_v47 : IVec S_ 1 := (fun x v => Host.reduce IntOp.andi x v reducesTo_S12x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_v48 main_v49 main_v50

def fn_part1 {F : FTy → Type} [FloatOps F] (main_arg4 : FVec F S16 .f32) (main_arg5 : FVec F S16x16 .f32) (main_arg6 : FVec F S16 .f32) (main_arg7 : FVec F S16x12 .f32) (main_arg8 : FVec F S12 .f32) (main_arg9 : FVec F S12x8 .f32) (main_arg10 : FVec F S8 .f32) (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1048576x8 .f32) (main_arg1 : FVec F S8 .f32) (main_arg2 : FVec F S8 .f32) (main_arg3 : FVec F S8x16 .f32) (main_arg4 : FVec F S16 .f32) (main_arg5 : FVec F S16x16 .f32) (main_arg6 : FVec F S16 .f32) (main_arg7 : FVec F S16x12 .f32) (main_arg8 : FVec F S12 .f32) (main_arg9 : FVec F S12x8 .f32) (main_arg10 : FVec F S8 .f32) (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg3
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1048576x8 : Shape := ⟨2, ![1048576, 8]⟩
abbrev S8 : Shape := ⟨1, ![8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S1x8 : Shape := ⟨2, ![1, 8]⟩
abbrev S4096x8 : Shape := ⟨2, ![4096, 8]⟩
abbrev S_ : Shape := ⟨0, ![]⟩
abbrev S1x16 : Shape := ⟨2, ![1, 16]⟩
abbrev S1x12 : Shape := ⟨2, ![1, 12]⟩
abbrev S1x4 : Shape := ⟨2, ![1, 4]⟩
abbrev S1x1 : Shape := ⟨2, ![1, 1]⟩
abbrev S1048576x1 : Shape := ⟨2, ![1048576, 1]⟩
abbrev S4096x1 : Shape := ⟨2, ![4096, 1]⟩
abbrev S4096x16 : Shape := ⟨2, ![4096, 16]⟩
abbrev S4096x12 : Shape := ⟨2, ![4096, 12]⟩
abbrev S4096x4 : Shape := ⟨2, ![4096, 4]⟩

abbrev nBuf : Space → Nat
  | .hbm => 40
  | .vmem => 28
  | .smem => 0
  | _ => 0

abbrev bufTy : (tb : Table) → Fin (tcTables nBuf tb) → BufTy
  | .hbm, ⟨0, _⟩ => ⟨S1048576x8, .f32⟩
  | .hbm, ⟨1, _⟩ => ⟨S8, .f32⟩
  | .hbm, ⟨2, _⟩ => ⟨S8, .f32⟩
  | .hbm, ⟨3, _⟩ => ⟨S8x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x12, .f32⟩
  | .hbm, ⟨8, _⟩ => ⟨S12, .f32⟩
  | .hbm, ⟨9, _⟩ => ⟨S12x8, .f32⟩
  | .hbm, ⟨10, _⟩ => ⟨S8, .f32⟩
  | .hbm, ⟨11, _⟩ => ⟨S8x4, .f32⟩
  | .hbm, ⟨12, _⟩ => ⟨S4, .f32⟩
  | .hbm, ⟨13, _⟩ => ⟨S4x4, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x1, .f32⟩
  | .hbm, ⟨18, _⟩ => ⟨S1, .f32⟩
  | .hbm, ⟨19, _⟩ => ⟨S1x8, .f32⟩
  | .hbm, ⟨20, _⟩ => ⟨S1x8, .f32⟩
  | .hbm, ⟨21, _⟩ => ⟨S_, .f32⟩
  | .hbm, ⟨22, _⟩ => ⟨S1x8, .f32⟩
  | .hbm, ⟨23, _⟩ => ⟨S1x8, .f32⟩
  | .hbm, ⟨24, _⟩ => ⟨S_, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S1x8, .f32⟩
  | .hbm, ⟨31, _⟩ => ⟨S1x16, .f32⟩
  | .hbm, ⟨32, _⟩ => ⟨S1x16, .f32⟩
  | .hbm, ⟨33, _⟩ => ⟨S1x12, .f32⟩
  | .hbm, ⟨34, _⟩ => ⟨S1x8, .f32⟩
  | .hbm, ⟨35, _⟩ => ⟨S1x4, .f32⟩
  | .hbm, ⟨36, _⟩ => ⟨S1x4, .f32⟩
  | .hbm, ⟨37, _⟩ => ⟨S1x4, .f32⟩
  | .hbm, ⟨38, _⟩ => ⟨S1x1, .f32⟩
  | .hbm, ⟨39, _⟩ => ⟨S1048576x1, .f32⟩
  | .local _ .vmem, ⟨0, _⟩ => ⟨S4096x8, .f32⟩
  | .local _ .vmem, ⟨1, _⟩ => ⟨S4096x8, .f32⟩
  | .local _ .vmem, ⟨2, _⟩ => ⟨S1x8, .f32⟩
  | .local _ .vmem, ⟨3, _⟩ => ⟨S1x8, .f32⟩
  | .local _ .vmem, ⟨4, _⟩ => ⟨S4096x8, .f32⟩
  | .local _ .vmem, ⟨5, _⟩ => ⟨S4096x8, .f32⟩
  | .local _ .vmem, ⟨6, _⟩ => ⟨S1x8, .f32⟩
  | .local _ .vmem, ⟨7, _⟩ => ⟨S1x8, .f32⟩
  | .local _ .vmem, ⟨8, _⟩ => ⟨S1x8, .f32⟩
  | .local _ .vmem, ⟨9, _⟩ => ⟨S1x8, .f32⟩
  | .local _ .vmem, ⟨10, _⟩ => ⟨S8x16, .f32⟩
  | .local _ .vmem, ⟨11, _⟩ => ⟨S1x16, .f32⟩
  | .local _ .vmem, ⟨12, _⟩ => ⟨S16x16, .f32⟩
  | .local _ .vmem, ⟨13, _⟩ => ⟨S1x16, .f32⟩
  | .local _ .vmem, ⟨14, _⟩ => ⟨S16x12, .f32⟩
  | .local _ .vmem, ⟨15, _⟩ => ⟨S1x12, .f32⟩
  | .local _ .vmem, ⟨16, _⟩ => ⟨S12x8, .f32⟩
  | .local _ .vmem, ⟨17, _⟩ => ⟨S1x8, .f32⟩
  | .local _ .vmem, ⟨18, _⟩ => ⟨S8x4, .f32⟩
  | .local _ .vmem, ⟨19, _⟩ => ⟨S1x4, .f32⟩
  | .local _ .vmem, ⟨20, _⟩ => ⟨S4x4, .f32⟩
  | .local _ .vmem, ⟨21, _⟩ => ⟨S1x4, .f32⟩
  | .local _ .vmem, ⟨22, _⟩ => ⟨S4x4, .f32⟩
  | .local _ .vmem, ⟨23, _⟩ => ⟨S1x4, .f32⟩
  | .local _ .vmem, ⟨24, _⟩ => ⟨S4x1, .f32⟩
  | .local _ .vmem, ⟨25, _⟩ => ⟨S1x1, .f32⟩
  | .local _ .vmem, ⟨26, _⟩ => ⟨S4096x1, .f32⟩
  | .local _ .vmem, ⟨27, _⟩ => ⟨S4096x1, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg16_0 : Ref sig .tc := ⟨.vmem, 21, rfl⟩
abbrev cc1_stg17_0 : Ref sig .tc := ⟨.vmem, 22, rfl⟩
abbrev cc1_stg18_0 : Ref sig .tc := ⟨.vmem, 23, rfl⟩
abbrev cc1_stg19_0 : Ref sig .tc := ⟨.vmem, 24, rfl⟩
abbrev cc1_stg20_0 : Ref sig .tc := ⟨.vmem, 25, rfl⟩
abbrev cc1_stg21_0 : Ref sig .tc := ⟨.vmem, 26, rfl⟩
abbrev cc1_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem19_0 : DmaSem sig := 24
abbrev cc1_sem20_0 : DmaSem sig := 25
abbrev cc1_sem21_0 : DmaSem sig := 26
abbrev cc1_sem21_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x12 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x12 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S12x8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x4 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x4 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4x4 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x4 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S4x4 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x4 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S4x1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 2 → Memref sig .tc .vmem S4096x1 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

class Facts₀ : Prop where
  inb_S1x8_S1x8_0_0 : ∀ a, (![0, 0] : Fin 2 → Nat) a + S1x8.size a ≤ S1x8.size a
  h_S1x8 : 0 < S1x8.numel
  inb_S4096x8_S4096x8_0_0 : ∀ a, (![0, 0] : Fin 2 → Nat) a + S4096x8.size a ≤ S4096x8.size a
  h_S4096x8 : 0 < S4096x8.numel
  shapeCasts_S1x8_S1x8 : S1x8.ShapeCasts S1x8
  reduces_S4096x8_S8 : S4096x8.Reduces [0] S8
  shapeCasts_S8_S1x8 : S8.ShapeCasts S1x8
  bcast_S_S1x8 : S_.BroadcastsInDim S1x8 (![] : Fin 0 → Fin S1x8.rank)
  shapeCasts_S16_S1x16 : S16.ShapeCasts S1x16
  shapeCasts_S12_S1x12 : S12.ShapeCasts S1x12
  shapeCasts_S4_S1x4 : S4.ShapeCasts S1x4
  shapeCasts_S1_S1x1 : S1.ShapeCasts S1x1
  broadcasts_S1x8_S4096x8 : S1x8.Broadcasts S4096x8
  bitsLt_bf16_f32 : FTy.bits .bf16 < FTy.bits .f32
  inb_S8x16_S8x16_0_0 : ∀ a, (![0, 0] : Fin 2 → Nat) a + S8x16.size a ≤ S8x16.size a
  h_S8x16 : 0 < S8x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x16_S16x16_0_0 : ∀ a, (![0, 0] : Fin 2 → Nat) a + S16x16.size a ≤ S16x16.size a
  h_S16x16 : 0 < S16x16.numel
  inb_S16x12_S16x12_0_0 : ∀ a, (![0, 0] : Fin 2 → Nat) a + S16x12.size a ≤ S16x12.size a
  h_S16x12 : 0 < S16x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S4096x12 : S1x12.Broadcasts S4096x12
  inb_S12x8_S12x8_0_0 : ∀ a, (![0, 0] : Fin 2 → Nat) a + S12x8.size a ≤ S12x8.size a
  h_S12x8 : 0 < S12x8.numel
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4096x4 : S1x4.Broadcasts S4096x4
  inb_S4x4_S4x4_0_0 : ∀ a, (![0, 0] : Fin 2 → Nat) a + S4x4.size a ≤ S4x4.size a
  h_S4x4 : 0 < S4x4.numel
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x8_S8x16_S4096x16_1_0_0_1_n_n_wf : DotDims.WF S4096x8 S8x16 S4096x16 [1] [0] [0] [1] [] []
  dot_S4096x16_S16x16_S4096x16_1_0_0_1_n_n_wf : DotDims.WF S4096x16 S16x16 S4096x16 [1] [0] [0] [1] [] []
  dot_S4096x16_S16x12_S4096x12_1_0_0_1_n_n_wf : DotDims.WF S4096x16 S16x12 S4096x12 [1] [0] [0] [1] [] []
  dot_S4096x12_S12x8_S4096x8_1_0_0_1_n_n_wf : DotDims.WF S4096x12 S12x8 S4096x8 [1] [0] [0] [1] [] []
  dot_S4096x8_S8x4_S4096x4_1_0_0_1_n_n_wf : DotDims.WF S4096x8 S8x4 S4096x4 [1] [0] [0] [1] [] []
  dot_S4096x4_S4x4_S4096x4_1_0_0_1_n_n_wf : DotDims.WF S4096x4 S4x4 S4096x4 [1] [0] [0] [1] [] []
  dot_S4096x4_S4x1_S4096x1_1_0_0_1_n_n_wf : DotDims.WF S4096x4 S4x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S1048576x8.size a
  hwx0_0 : ∀ i : grid0.Coords, EltTy.bits .f32 = 32 ∨ (Rect.block (s := S1048576x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x8.size a ≤ S1048576x8.size a
  hwx1_0 : ∀ i : grid1.Coords, EltTy.bits .f32 = 32 ∨ (Rect.block (s := S1048576x8) S4096x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x16.size a ≤ S8x16.size a
  hwx1_5 : ∀ i : grid1.Coords, EltTy.bits .f32 = 32 ∨ (Rect.block (s := S8x16) S8x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x16.size a ≤ S16x16.size a
  hwx1_7 : ∀ i : grid1.Coords, EltTy.bits .f32 = 32 ∨ (Rect.block (s := S16x16) S16x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S16x12.size a ≤ S16x12.size a
  hwx1_9 : ∀ i : grid1.Coords, EltTy.bits .f32 = 32 ∨ (Rect.block (s := S16x12) S16x12.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x12.size a ≤ S1x12.size a
  hwx1_10 : ∀ i : grid1.Coords, EltTy.bits .f32 = 32 ∨ (Rect.block (s := S1x12) S1x12.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S12x8.size a ≤ S12x8.size a
  hwx1_11 : ∀ i : grid1.Coords, EltTy.bits .f32 = 32 ∨ (Rect.block (s := S12x8) S12x8.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x8.size a ≤ S1x8.size a
  hwx1_12 : ∀ i : grid1.Coords, EltTy.bits .f32 = 32 ∨ (Rect.block (s := S1x8) S1x8.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S8x4.size a ≤ S8x4.size a
  hwx1_13 : ∀ i : grid1.Coords, EltTy.bits .f32 = 32 ∨ (Rect.block (s := S8x4) S8x4.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x4.size a ≤ S1x4.size a
  hwx1_14 : ∀ i : grid1.Coords, EltTy.bits .f32 = 32 ∨ (Rect.block (s := S1x4) S1x4.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S4x4.size a ≤ S4x4.size a
  hwx1_15 : ∀ i : grid1.Coords, EltTy.bits .f32 = 32 ∨ (Rect.block (s := S4x4) S4x4.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x4.size a ≤ S1x4.size a
  hwx1_16 : ∀ i : grid1.Coords, EltTy.bits .f32 = 32 ∨ (Rect.block (s := S1x4) S1x4.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S4x4.size a ≤ S4x4.size a
  hwx1_17 : ∀ i : grid1.Coords, EltTy.bits .f32 = 32 ∨ (Rect.block (s := S4x4) S4x4.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x4.size a ≤ S1x4.size a
  hwx1_18 : ∀ i : grid1.Coords, EltTy.bits .f32 = 32 ∨ (Rect.block (s := S1x4) S1x4.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S4x1.size a ≤ S4x1.size a
  hwx1_19 : ∀ i : grid1.Coords, EltTy.bits .f32 = 32 ∨ (Rect.block (s := S4x1) S4x1.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x1.size a ≤ S1x1.size a
  hwx1_20 : ∀ i : grid1.Coords, EltTy.bits .f32 = 32 ∨ (Rect.block (s := S1x1) S1x1.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S4096x1.size a ≤ S1048576x1.size a
  hwx1_21 : ∀ i : grid1.Coords, EltTy.bits .f32 = 32 ∨ (Rect.block (s := S1048576x1) S4096x1.size (cc1_transform_21 i) (hinb1_21 i)).WholeWords (EltTy.packing .f32)

variable [Facts₀]

def dot_S4096x8_S8x16_S4096x16_1_0_0_1_n_n : DotDims S4096x8 S8x16 S4096x16 where
  lhsContracting := [1]
  rhsContracting := [0]
  lhsNonContracting := [0]
  rhsNonContracting := [1]
  lhsBatch := []
  rhsBatch := []
  wf := dot_S4096x8_S8x16_S4096x16_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x16_S16x12_S4096x12_1_0_0_1_n_n : DotDims S4096x16 S16x12 S4096x12 where
  lhsContracting := [1]
  rhsContracting := [0]
  lhsNonContracting := [0]
  rhsNonContracting := [1]
  lhsBatch := []
  rhsBatch := []
  wf := dot_S4096x16_S16x12_S4096x12_1_0_0_1_n_n_wf
def dot_S4096x12_S12x8_S4096x8_1_0_0_1_n_n : DotDims S4096x12 S12x8 S4096x8 where
  lhsContracting := [1]
  rhsContracting := [0]
  lhsNonContracting := [0]
  rhsNonContracting := [1]
  lhsBatch := []
  rhsBatch := []
  wf := dot_S4096x12_S12x8_S4096x8_1_0_0_1_n_n_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf
def dot_S4096x4_S4x4_S4096x4_1_0_0_1_n_n : DotDims S4096x4 S4x4 S4096x4 where
  lhsContracting := [1]
  rhsContracting := [0]
  lhsNonContracting := [0]
  rhsNonContracting := [1]
  lhsBatch := []
  rhsBatch := []
  wf := dot_S4096x4_S4x4_S4096x4_1_0_0_1_n_n_wf
def dot_S4096x4_S4x1_S4096x1_1_0_0_1_n_n : DotDims S4096x4 S4x1 S4096x1 where
  lhsContracting := [1]
  rhsContracting := [0]
  lhsNonContracting := [0]
  rhsNonContracting := [1]
  lhsBatch := []
  rhsBatch := []
  wf := dot_S4096x4_S4x1_S4096x1_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4096x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S8x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S16x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S16x12.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S1x12.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg9) S12x8.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v12) S1x8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg11) S8x4.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v13) S1x4.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg13) S4x4.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v14) S1x4.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg15) S4x4.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v15) S1x4.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_arg17) S4x1.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v16) S1x1.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v17) S4096x1.size cc1_transform_21 reads1_21 true false 2 stage1_21 sem1_21
    hrank1 hreads1_21 hinb1_21 nbuf1_21 (Memref.isWhole_whole _) hwx1_21 hstage1_21

abbrev win1 : Fin 22 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | ⟨_ + 22, h⟩ => absurd h (Nat.not_lt.2 (Nat.le_add_left _ _))
abbrev spec1 : Fin 22 → Pipeline.WinSpec sig grid1.rank := fun w => (win1 w).toWinSpec

class Facts : Prop extends Facts₀ where

variable [Facts]
-- ==== ReferenceIdeal.lean ====
abbrev S1048576x8 : Shape := ⟨2, ![1048576, 8]⟩
abbrev S8 : Shape := ⟨1, ![8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩
abbrev S1x8 : Shape := ⟨2, ![1, 8]⟩
abbrev S1048576x16 : Shape := ⟨2, ![1048576, 16]⟩
abbrev S1x16 : Shape := ⟨2, ![1, 16]⟩
abbrev S1048576x12 : Shape := ⟨2, ![1048576, 12]⟩
abbrev S1x12 : Shape := ⟨2, ![1, 12]⟩
abbrev S1048576x4 : Shape := ⟨2, ![1048576, 4]⟩
abbrev S1x4 : Shape := ⟨2, ![1, 4]⟩
abbrev S1048576x1 : Shape := ⟨2, ![1048576, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S8, .f32⟩
  | .hbm, ⟨2, _⟩ => ⟨S8, .f32⟩
  | .hbm, ⟨3, _⟩ => ⟨S8x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x12, .f32⟩
  | .hbm, ⟨8, _⟩ => ⟨S12, .f32⟩
  | .hbm, ⟨9, _⟩ => ⟨S12x8, .f32⟩
  | .hbm, ⟨10, _⟩ => ⟨S8, .f32⟩
  | .hbm, ⟨11, _⟩ => ⟨S8x4, .f32⟩
  | .hbm, ⟨12, _⟩ => ⟨S4, .f32⟩
  | .hbm, ⟨13, _⟩ => ⟨S4x4, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x1, .f32⟩
  | .hbm, ⟨18, _⟩ => ⟨S1, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S1x8, .f32⟩
  | .hbm, ⟨25, _⟩ => ⟨S1048576x8, .f32⟩
  | .hbm, ⟨26, _⟩ => ⟨S1048576x8, .f32⟩
  | .hbm, ⟨27, _⟩ => ⟨S1048576x8, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S1x8, .f32⟩
  | .hbm, ⟨34, _⟩ => ⟨S1048576x8, .f32⟩
  | .hbm, ⟨35, _⟩ => ⟨S1048576x8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S1048576x8, .f32⟩
  | .hbm, ⟨42, _⟩ => ⟨S1048576x8, .f32⟩
  | .hbm, ⟨43, _⟩ => ⟨S1x8, .f32⟩
  | .hbm, ⟨44, _⟩ => ⟨S1048576x8, .f32⟩
  | .hbm, ⟨45, _⟩ => ⟨S1048576x8, .f32⟩
  | .hbm, ⟨46, _⟩ => ⟨S1x8, .f32⟩
  | .hbm, ⟨47, _⟩ => ⟨S1048576x8, .f32⟩
  | .hbm, ⟨48, _⟩ => ⟨S1048576x8, .f32⟩
  | .hbm, ⟨49, _⟩ => ⟨S1048576x16, .f32⟩
  | .hbm, ⟨50, _⟩ => ⟨S1x16, .f32⟩
  | .hbm, ⟨51, _⟩ => ⟨S1048576x16, .f32⟩
  | .hbm, ⟨52, _⟩ => ⟨S1048576x16, .f32⟩
  | .hbm, ⟨53, _⟩ => ⟨S1048576x16, .f32⟩
  | .hbm, ⟨54, _⟩ => ⟨S1048576x16, .f32⟩
  | .hbm, ⟨55, _⟩ => ⟨S1x16, .f32⟩
  | .hbm, ⟨56, _⟩ => ⟨S1048576x16, .f32⟩
  | .hbm, ⟨57, _⟩ => ⟨S1048576x16, .f32⟩
  | .hbm, ⟨58, _⟩ => ⟨S1048576x16, .f32⟩
  | .hbm, ⟨59, _⟩ => ⟨S1048576x12, .f32⟩
  | .hbm, ⟨60, _⟩ => ⟨S1x12, .f32⟩
  | .hbm, ⟨61, _⟩ => ⟨S1048576x12, .f32⟩
  | .hbm, ⟨62, _⟩ => ⟨S1048576x12, .f32⟩
  | .hbm, ⟨63, _⟩ => ⟨S1048576x12, .f32⟩
  | .hbm, ⟨64, _⟩ => ⟨S1048576x8, .f32⟩
  | .hbm, ⟨65, _⟩ => ⟨S1x8, .f32⟩
  | .hbm, ⟨66, _⟩ => ⟨S1048576x8, .f32⟩
  | .hbm, ⟨67, _⟩ => ⟨S1048576x8, .f32⟩
  | .hbm, ⟨68, _⟩ => ⟨S1048576x8, .f32⟩
  | .hbm, ⟨69, _⟩ => ⟨S1048576x4, .f32⟩
  | .hbm, ⟨70, _⟩ => ⟨S1x4, .f32⟩
  | .hbm, ⟨71, _⟩ => ⟨S1048576x4, .f32⟩
  | .hbm, ⟨72, _⟩ => ⟨S1048576x4, .f32⟩
  | .hbm, ⟨73, _⟩ => ⟨S1048576x4, .f32⟩
  | .hbm, ⟨74, _⟩ => ⟨S1048576x4, .f32⟩
  | .hbm, ⟨75, _⟩ => ⟨S1x4, .f32⟩
  | .hbm, ⟨76, _⟩ => ⟨S1048576x4, .f32⟩
  | .hbm, ⟨77, _⟩ => ⟨S1048576x4, .f32⟩
  | .hbm, ⟨78, _⟩ => ⟨S1048576x4, .f32⟩
  | .hbm, ⟨79, _⟩ => ⟨S1048576x4, .f32⟩
  | .hbm, ⟨80, _⟩ => ⟨S1x4, .f32⟩
  | .hbm, ⟨81, _⟩ => ⟨S1048576x4, .f32⟩
  | .hbm, ⟨82, _⟩ => ⟨S1048576x4, .f32⟩
  | .hbm, ⟨83, _⟩ => ⟨S_, .f32⟩
  | .hbm, ⟨84, _⟩ => ⟨S1048576x4, .f32⟩
  | .hbm, ⟨85, _⟩ => ⟨S1048576x4, .f32⟩
  | .hbm, ⟨86, _⟩ => ⟨S1048576x4, .f32⟩
  | .hbm, ⟨87, _⟩ => ⟨S1048576x1, .f32⟩
  | .hbm, ⟨88, _⟩ => ⟨S1x1, .f32⟩
  | .hbm, ⟨89, _⟩ => ⟨S1048576x1, .f32⟩
  | .hbm, ⟨90, _⟩ => ⟨S1048576x1, .f32⟩
  | .hbm, ⟨91, _⟩ => ⟨S1048576x1, .f32⟩
  | .hbm, ⟨92, _⟩ => ⟨S1048576x1, .f32⟩
  | .hbm, ⟨93, _⟩ => ⟨S_, .f32⟩
  | .hbm, ⟨94, _⟩ => ⟨S1048576x1, .f32⟩
  | .hbm, ⟨95, _⟩ => ⟨S1048576x1, .f32⟩
  | .hbm, ⟨96, _⟩ => ⟨S_, .f32⟩
  | .hbm, ⟨97, _⟩ => ⟨S1048576x1, .f32⟩
  | .hbm, ⟨98, _⟩ => ⟨S1048576x1, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_cst_2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call0_cst : Ref sig .tc := ⟨.hbm, 83, rfl⟩
abbrev main_call0_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_4 : Ref sig .tc := ⟨.hbm, 93, rfl⟩
abbrev main_v67 : Ref sig .tc := ⟨.hbm, 94, rfl⟩
abbrev main_v68 : Ref sig .tc := ⟨.hbm, 95, rfl⟩
abbrev main_cst_5 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  reducesTo_S1048576x8_S8_d0 : S1048576x8.ReducesTo [0] S8
  h_S_ : 0 < S_.numel
  bcast_S_S8 : S_.BroadcastsInDim S8 (![] : Fin 0 → Fin S8.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S12_S1x12_1 : S12.BroadcastsInDim S1x12 (![1] : Fin 1 → Fin S1x12.rank)
  bcast_S1x12_S1048576x12_0_1 : S1x12.BroadcastsInDim S1048576x12 (![0, 1] : Fin 2 → Fin S1048576x12.rank)
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  bcast_S_S1048576x4 : S_.BroadcastsInDim S1048576x4 (![] : Fin 0 → Fin S1048576x4.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x8_S8x16_S1048576x16_1_0_0_1_n_n_wf : DotDims.WF S1048576x8 S8x16 S1048576x16 [1] [0] [0] [1] [] []
  dot_S1048576x16_S16x16_S1048576x16_1_0_0_1_n_n_wf : DotDims.WF S1048576x16 S16x16 S1048576x16 [1] [0] [0] [1] [] []
  dot_S1048576x16_S16x12_S1048576x12_1_0_0_1_n_n_wf : DotDims.WF S1048576x16 S16x12 S1048576x12 [1] [0] [0] [1] [] []
  dot_S1048576x12_S12x8_S1048576x8_1_0_0_1_n_n_wf : DotDims.WF S1048576x12 S12x8 S1048576x8 [1] [0] [0] [1] [] []
  dot_S1048576x8_S8x4_S1048576x4_1_0_0_1_n_n_wf : DotDims.WF S1048576x8 S8x4 S1048576x4 [1] [0] [0] [1] [] []
  dot_S1048576x4_S4x4_S1048576x4_1_0_0_1_n_n_wf : DotDims.WF S1048576x4 S4x4 S1048576x4 [1] [0] [0] [1] [] []
  dot_S1048576x4_S4x1_S1048576x1_1_0_0_1_n_n_wf : DotDims.WF S1048576x4 S4x1 S1048576x1 [1] [0] [0] [1] [] []

variable [Facts₀]

def dot_S1048576x8_S8x16_S1048576x16_1_0_0_1_n_n : DotDims S1048576x8 S8x16 S1048576x16 where
  lhsContracting := [1]
  rhsContracting := [0]
  lhsNonContracting := [0]
  rhsNonContracting := [1]
  lhsBatch := []
  rhsBatch := []
  wf := dot_S1048576x8_S8x16_S1048576x16_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf
def dot_S1048576x16_S16x12_S1048576x12_1_0_0_1_n_n : DotDims S1048576x16 S16x12 S1048576x12 where
  lhsContracting := [1]
  rhsContracting := [0]
  lhsNonContracting := [0]
  rhsNonContracting := [1]
  lhsBatch := []
  rhsBatch := []
  wf := dot_S1048576x16_S16x12_S1048576x12_1_0_0_1_n_n_wf
def dot_S1048576x12_S12x8_S1048576x8_1_0_0_1_n_n : DotDims S1048576x12 S12x8 S1048576x8 where
  lhsContracting := [1]
  rhsContracting := [0]
  lhsNonContracting := [0]
  rhsNonContracting := [1]
  lhsBatch := []
  rhsBatch := []
  wf := dot_S1048576x12_S12x8_S1048576x8_1_0_0_1_n_n_wf
def dot_S1048576x8_S8x4_S1048576x4_1_0_0_1_n_n : DotDims S1048576x8 S8x4 S1048576x4 where
  lhsContracting := [1]
  rhsContracting := [0]
  lhsNonContracting := [0]
  rhsNonContracting := [1]
  lhsBatch := []
  rhsBatch := []
  wf := dot_S1048576x8_S8x4_S1048576x4_1_0_0_1_n_n_wf
def dot_S1048576x4_S4x4_S1048576x4_1_0_0_1_n_n : DotDims S1048576x4 S4x4 S1048576x4 where
  lhsContracting := [1]
  rhsContracting := [0]
  lhsNonContracting := [0]
  rhsNonContracting := [1]
  lhsBatch := []
  rhsBatch := []
  wf := dot_S1048576x4_S4x4_S1048576x4_1_0_0_1_n_n_wf
def dot_S1048576x4_S4x1_S1048576x1_1_0_0_1_n_n : DotDims S1048576x4 S4x1 S1048576x1 where
  lhsContracting := [1]
  rhsContracting := [0]
  lhsNonContracting := [0]
  rhsNonContracting := [1]
  lhsBatch := []
  rhsBatch := []
  wf := dot_S1048576x4_S4x1_S1048576x1_1_0_0_1_n_n_wf

class Facts : Prop extends Facts₀ where

variable [Facts]
-- ==== Proof.Spec.lean ====
/-
  What both programs compute, as functions on the extended reals.

  The input is a batch of 1048576 rows of 8 features. Each feature is normalised over the batch (a mean and a
  variance per feature), scaled and shifted, and the row then runs through six dense layers with tanh, a dense
  layer with a rectifier added back to its own input, and a last dense layer with the logistic function. One row's
  result depends on the other rows only through the two per-feature statistics.

  The two programs differ in how they get the variance. One takes the mean of the squares minus the square of the
  mean; the other takes the mean of the squared deviations from the mean. On finite inputs these are the same real
  number, because the divisor 2^20 is the number of rows (`var_eq`, in the module of the law). Everything else is the
  same expression on both sides, so it is stated once here: `net`.
-/
import Idealize.ShloMosaic.Lib.ValueIdx
import Idealize.ShloMosaic.PureOps.Ideal.Laws

noncomputable section

namespace Cert.Spec

open Idealize.ShloMosaic

/-! ## The literal words the programs spell -/

/-- The word `0x3F800000` is the real number 1. -/
theorem ofBits_one : Ideal.ofBits .f32 0x3F800000#32 = 1 := by
  simp [Ideal.ofBits, Ideal.ieee, -EReal.coe_mul]; norm_num

/-- The word `0x49800000` is 2^20 = 1048576, the number of rows. -/
theorem ofBits_rows : Ideal.ofBits .f32 0x49800000#32 = ((1048576 : ℝ) : EReal) := by
  simp [Ideal.ofBits, Ideal.ieee, -EReal.coe_mul]; norm_num

/-- The divisor of both means: the word both programs spell for the batch size. -/
def rows : EReal := Ideal.ofBits .f32 0x49800000#32

/-- The stabiliser added to the variance: the same word on both sides, never evaluated. -/
def eps : EReal := Ideal.ofBits .f32 0x3727C5AC#32

/-- The rectifier's threshold: the zero word. -/
def zero : EReal := Ideal.ofBits .f32 0x00000000#32

/-! ## The batch statistics -/

/-- The sum of feature `j` over all rows. -/
def colSum (x : Fin 1048576 → Fin 8 → EReal) (j : Fin 8) : EReal := ∑ r : Fin 1048576, x r j

/-- The mean of feature `j`: the column sum over the batch size. -/
def mean (x : Fin 1048576 → Fin 8 → EReal) (j : Fin 8) : EReal := Ideal.div (colSum x j) rows

/-- The variance as the mean of the squares minus the square of the mean. -/
def varOfSquares (x : Fin 1048576 → Fin 8 → EReal) (j : Fin 8) : EReal :=
  Ideal.div (colSum (fun r q => x r q * x r q) j) rows - mean x j * mean x j

/-- The variance as the mean of the squared deviations from the mean. -/
def varOfDeviations (x : Fin 1048576 → Fin 8 → EReal) (j : Fin 8) : EReal :=
  Ideal.div (colSum (fun r q => (x r q - mean x q) * (x r q - mean x q)) j) rows

/-! ## One row through the network -/

/-- A dense layer before its activation: output feature `j` is the inner product of the row with column `j` of the
    weights, plus the bias. -/
def dense {K N : Nat} (h : Fin K → EReal) (w : Fin K → Fin N → EReal) (b : Fin N → EReal) (j : Fin N) : EReal :=
  (∑ a : Fin K, h a * w a j) + b j

/-- A dense layer followed by tanh. -/
def tanhLayer {K N : Nat} (h : Fin K → EReal) (w : Fin K → Fin N → EReal) (b : Fin N → EReal) (j : Fin N) : EReal :=
  Ideal.tanh (dense h w b j)

/-- The normalised row: centre by the mean, scale by the inverse square root of the stabilised variance, then the
    learned scale and shift. -/
def normed (x mu var g b : Fin 8 → EReal) (j : Fin 8) : EReal :=
  (x j - mu j) * Ideal.rsqrt (var j + eps) * g j + b j

/-- One row's result from its eight features, the two statistics and the parameters. -/
def net (x mu var g b : Fin 8 → EReal)
    (wfm : Fin 8 → Fin 16 → EReal) (bfm : Fin 16 → EReal) (wc1 : Fin 16 → Fin 16 → EReal) (bc1 : Fin 16 → EReal)
    (wp1 : Fin 16 → Fin 12 → EReal) (bp1 : Fin 12 → EReal) (wc2 : Fin 12 → Fin 8 → EReal) (bc2 : Fin 8 → EReal)
    (wp2 : Fin 8 → Fin 4 → EReal) (bp2 : Fin 4 → EReal) (wc3 : Fin 4 → Fin 4 → EReal) (bc3 : Fin 4 → EReal)
    (wr : Fin 4 → Fin 4 → EReal) (br : Fin 4 → EReal) (wh : Fin 4 → Fin 1 → EReal) (bh : Fin 1 → EReal) : EReal :=
  let h1 := tanhLayer (normed x mu var g b) wfm bfm
  let h2 := tanhLayer h1 wc1 bc1
  let h3 := tanhLayer h2 wp1 bp1
  let h4 := tanhLayer h3 wc2 bc2
  let h5 := tanhLayer h4 wp2 bp2
  let h6 := tanhLayer h5 wc3 bc3
  let h7 : Fin 4 → EReal := fun j => h6 j + max (dense h6 wr br j) zero
  Ideal.logistic (dense h7 wh bh 0)

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelRow.lean ====
/-
  The second kernel region's body on one block, read at one row.

  The body loads a block of 4096 rows and the resident statistics and parameters (each a 1×n or k×n array), and
  stores one value per row. Every operation in it is either pointwise, a broadcast of a 1×n array down the rows, or
  a matrix product of the block with a k×n weight — and a matrix product's row p depends on row p of its left
  operand only. The changes of float format before each product are the identity on the extended reals. So the value
  stored for row p is the network applied to row p of the block: `Spec.net`.
-/
import proofs.«148413_j65481071403406_1_alg».proof.Proof.Gen.KernelIdeal.Skeleton
import proofs.«148413_j65481071403406_1_alg».proof.Proof.Spec
import proofs.«148413_j65481071403406_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx

/-! ## Which coordinate of each operand a product reads

Each of the seven products contracts the second axis of its left operand with the first axis of its right operand: the
left operand is read at the output's row and the contracted position, the right operand at the contracted position
and the output's column. -/

/-- The left operand of this product is read at the output's row … -/
theorem lhs_d1_0 (i : S4096x16.Idx) (q : dot_S4096x8_S8x16_S4096x16_1_0_0_1_n_n.contr.Idx) :
    (dot_S4096x8_S8x16_S4096x16_1_0_0_1_n_n.lhsIdx i q 0).val = (i 0).val := by
  unfold DotDims.lhsIdx
  rw [dif_neg (show ¬(0 : Fin S4096x8.rank) ∈ dot_S4096x8_S8x16_S4096x16_1_0_0_1_n_n.lhsBatch by decide), dif_pos (show (0 : Fin S4096x8.rank) ∈ dot_S4096x8_S8x16_S4096x16_1_0_0_1_n_n.lhsNonContracting by decide)]
  rfl
/-- … and along the contracted position; -/
theorem lhs_d1_1 (i : S4096x16.Idx) (q : dot_S4096x8_S8x16_S4096x16_1_0_0_1_n_n.contr.Idx) :
    (dot_S4096x8_S8x16_S4096x16_1_0_0_1_n_n.lhsIdx i q 1).val = (q ⟨0, by decide⟩).val :=
  dot_S4096x8_S8x16_S4096x16_1_0_0_1_n_n.lhsIdx_val_of_single rfl i q
/-- the right operand is read along the contracted position … -/
theorem rhs_d1_0 (i : S4096x16.Idx) (q : dot_S4096x8_S8x16_S4096x16_1_0_0_1_n_n.contr.Idx) :
    (dot_S4096x8_S8x16_S4096x16_1_0_0_1_n_n.rhsIdx i q 0).val = (q ⟨0, by decide⟩).val :=
  dot_S4096x8_S8x16_S4096x16_1_0_0_1_n_n.rhsIdx_val_of_single rfl i q
/-- … and at the output's column. -/
theorem rhs_d1_1 (i : S4096x16.Idx) (q : dot_S4096x8_S8x16_S4096x16_1_0_0_1_n_n.contr.Idx) :
    (dot_S4096x8_S8x16_S4096x16_1_0_0_1_n_n.rhsIdx i q 1).val = (i 1).val := by
  unfold DotDims.rhsIdx
  rw [dif_neg (show ¬(1 : Fin S8x16.rank) ∈ dot_S4096x8_S8x16_S4096x16_1_0_0_1_n_n.rhsBatch by decide), dif_pos (show (1 : Fin S8x16.rank) ∈ dot_S4096x8_S8x16_S4096x16_1_0_0_1_n_n.rhsNonContracting by decide)]
  rfl

/-- The left operand of this product is read at the output's row … -/
theorem lhs_d2_0 (i : S4096x16.Idx) (q : dot_S4096x16_S16x16_S4096x16_1_0_0_1_n_n.contr.Idx) :
    (dot_S4096x16_S16x16_S4096x16_1_0_0_1_n_n.lhsIdx i q 0).val = (i 0).val := by
  unfold DotDims.lhsIdx
  rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
  rfl
/-- … and along the contracted position; -/
theorem lhs_d2_1 (i : S4096x16.Idx) (q : dot_S4096x16_S16x16_S4096x16_1_0_0_1_n_n.contr.Idx) :
    (dot_S4096x16_S16x16_S4096x16_1_0_0_1_n_n.lhsIdx i q 1).val = (q ⟨0, by decide⟩).val :=
  dot_S4096x16_S16x16_S4096x16_1_0_0_1_n_n.lhsIdx_val_of_single rfl i q
/-- the right operand is read along the contracted position … -/
theorem rhs_d2_0 (i : S4096x16.Idx) (q : dot_S4096x16_S16x16_S4096x16_1_0_0_1_n_n.contr.Idx) :
    (dot_S4096x16_S16x16_S4096x16_1_0_0_1_n_n.rhsIdx i q 0).val = (q ⟨0, by decide⟩).val :=
  dot_S4096x16_S16x16_S4096x16_1_0_0_1_n_n.rhsIdx_val_of_single rfl i q
/-- … and at the output's column. -/
theorem rhs_d2_1 (i : S4096x16.Idx) (q : dot_S4096x16_S16x16_S4096x16_1_0_0_1_n_n.contr.Idx) :
    (dot_S4096x16_S16x16_S4096x16_1_0_0_1_n_n.rhsIdx i q 1).val = (i 1).val := by
  unfold DotDims.rhsIdx
  rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
  rfl

/-- The left operand of this product is read at the output's row … -/
theorem lhs_d3_0 (i : S4096x12.Idx) (q : dot_S4096x16_S16x12_S4096x12_1_0_0_1_n_n.contr.Idx) :
    (dot_S4096x16_S16x12_S4096x12_1_0_0_1_n_n.lhsIdx i q 0).val = (i 0).val := by
  unfold DotDims.lhsIdx
  rw [dif_neg (show ¬(0 : Fin S4096x16.rank) ∈ dot_S4096x16_S16x12_S4096x12_1_0_0_1_n_n.lhsBatch by decide), dif_pos (show (0 : Fin S4096x16.rank) ∈ dot_S4096x16_S16x12_S4096x12_1_0_0_1_n_n.lhsNonContracting by decide)]
  rfl
/-- … and along the contracted position; -/
theorem lhs_d3_1 (i : S4096x12.Idx) (q : dot_S4096x16_S16x12_S4096x12_1_0_0_1_n_n.contr.Idx) :
    (dot_S4096x16_S16x12_S4096x12_1_0_0_1_n_n.lhsIdx i q 1).val = (q ⟨0, by decide⟩).val :=
  dot_S4096x16_S16x12_S4096x12_1_0_0_1_n_n.lhsIdx_val_of_single rfl i q
/-- the right operand is read along the contracted position … -/
theorem rhs_d3_0 (i : S4096x12.Idx) (q : dot_S4096x16_S16x12_S4096x12_1_0_0_1_n_n.contr.Idx) :
    (dot_S4096x16_S16x12_S4096x12_1_0_0_1_n_n.rhsIdx i q 0).val = (q ⟨0, by decide⟩).val :=
  dot_S4096x16_S16x12_S4096x12_1_0_0_1_n_n.rhsIdx_val_of_single rfl i q
/-- … and at the output's column. -/
theorem rhs_d3_1 (i : S4096x12.Idx) (q : dot_S4096x16_S16x12_S4096x12_1_0_0_1_n_n.contr.Idx) :
    (dot_S4096x16_S16x12_S4096x12_1_0_0_1_n_n.rhsIdx i q 1).val = (i 1).val := by
  unfold DotDims.rhsIdx
  rw [dif_neg (show ¬(1 : Fin S16x12.rank) ∈ dot_S4096x16_S16x12_S4096x12_1_0_0_1_n_n.rhsBatch by decide), dif_pos (show (1 : Fin S16x12.rank) ∈ dot_S4096x16_S16x12_S4096x12_1_0_0_1_n_n.rhsNonContracting by decide)]
  rfl

/-- The left operand of this product is read at the output's row … -/
theorem lhs_d4_0 (i : S4096x8.Idx) (q : dot_S4096x12_S12x8_S4096x8_1_0_0_1_n_n.contr.Idx) :
    (dot_S4096x12_S12x8_S4096x8_1_0_0_1_n_n.lhsIdx i q 0).val = (i 0).val := by
  unfold DotDims.lhsIdx
  rw [dif_neg (show ¬(0 : Fin S4096x12.rank) ∈ dot_S4096x12_S12x8_S4096x8_1_0_0_1_n_n.lhsBatch by decide), dif_pos (show (0 : Fin S4096x12.rank) ∈ dot_S4096x12_S12x8_S4096x8_1_0_0_1_n_n.lhsNonContracting by decide)]
  rfl
/-- … and along the contracted position; -/
theorem lhs_d4_1 (i : S4096x8.Idx) (q : dot_S4096x12_S12x8_S4096x8_1_0_0_1_n_n.contr.Idx) :
    (dot_S4096x12_S12x8_S4096x8_1_0_0_1_n_n.lhsIdx i q 1).val = (q ⟨0, by decide⟩).val :=
  dot_S4096x12_S12x8_S4096x8_1_0_0_1_n_n.lhsIdx_val_of_single rfl i q
/-- the right operand is read along the contracted position … -/
theorem rhs_d4_0 (i : S4096x8.Idx) (q : dot_S4096x12_S12x8_S4096x8_1_0_0_1_n_n.contr.Idx) :
    (dot_S4096x12_S12x8_S4096x8_1_0_0_1_n_n.rhsIdx i q 0).val = (q ⟨0, by decide⟩).val :=
  dot_S4096x12_S12x8_S4096x8_1_0_0_1_n_n.rhsIdx_val_of_single rfl i q
/-- … and at the output's column. -/
theorem rhs_d4_1 (i : S4096x8.Idx) (q : dot_S4096x12_S12x8_S4096x8_1_0_0_1_n_n.contr.Idx) :
    (dot_S4096x12_S12x8_S4096x8_1_0_0_1_n_n.rhsIdx i q 1).val = (i 1).val := by
  unfold DotDims.rhsIdx
  rw [dif_neg (show ¬(1 : Fin S12x8.rank) ∈ dot_S4096x12_S12x8_S4096x8_1_0_0_1_n_n.rhsBatch by decide), dif_pos (show (1 : Fin S12x8.rank) ∈ dot_S4096x12_S12x8_S4096x8_1_0_0_1_n_n.rhsNonContracting by decide)]
  rfl

/-- The left operand of this product is read at the output's row … -/
theorem lhs_d5_0 (i : S4096x4.Idx) (q : dot_S4096x8_S8x4_S4096x4_1_0_0_1_n_n.contr.Idx) :
    (dot_S4096x8_S8x4_S4096x4_1_0_0_1_n_n.lhsIdx i q 0).val = (i 0).val := by
  unfold DotDims.lhsIdx
  rw [dif_neg (show ¬(0 : Fin S4096x8.rank) ∈ dot_S4096x8_S8x4_S4096x4_1_0_0_1_n_n.lhsBatch by decide), dif_pos (show (0 : Fin S4096x8.rank) ∈ dot_S4096x8_S8x4_S4096x4_1_0_0_1_n_n.lhsNonContracting by decide)]
  rfl
/-- … and along the contracted position; -/
theorem lhs_d5_1 (i : S4096x4.Idx) (q : dot_S4096x8_S8x4_S4096x4_1_0_0_1_n_n.contr.Idx) :
    (dot_S4096x8_S8x4_S4096x4_1_0_0_1_n_n.lhsIdx i q 1).val = (q ⟨0, by decide⟩).val :=
  dot_S4096x8_S8x4_S4096x4_1_0_0_1_n_n.lhsIdx_val_of_single rfl i q
/-- the right operand is read along the contracted position … -/
theorem rhs_d5_0 (i : S4096x4.Idx) (q : dot_S4096x8_S8x4_S4096x4_1_0_0_1_n_n.contr.Idx) :
    (dot_S4096x8_S8x4_S4096x4_1_0_0_1_n_n.rhsIdx i q 0).val = (q ⟨0, by decide⟩).val :=
  dot_S4096x8_S8x4_S4096x4_1_0_0_1_n_n.rhsIdx_val_of_single rfl i q
/-- … and at the output's column. -/
theorem rhs_d5_1 (i : S4096x4.Idx) (q : dot_S4096x8_S8x4_S4096x4_1_0_0_1_n_n.contr.Idx) :
    (dot_S4096x8_S8x4_S4096x4_1_0_0_1_n_n.rhsIdx i q 1).val = (i 1).val := by
  unfold DotDims.rhsIdx
  rw [dif_neg (show ¬(1 : Fin S8x4.rank) ∈ dot_S4096x8_S8x4_S4096x4_1_0_0_1_n_n.rhsBatch by decide), dif_pos (show (1 : Fin S8x4.rank) ∈ dot_S4096x8_S8x4_S4096x4_1_0_0_1_n_n.rhsNonContracting by decide)]
  rfl

/-- The left operand of this product is read at the output's row … -/
theorem lhs_d6_0 (i : S4096x4.Idx) (q : dot_S4096x4_S4x4_S4096x4_1_0_0_1_n_n.contr.Idx) :
    (dot_S4096x4_S4x4_S4096x4_1_0_0_1_n_n.lhsIdx i q 0).val = (i 0).val := by
  unfold DotDims.lhsIdx
  rw [dif_neg (show ¬(0 : Fin S4096x4.rank) ∈ dot_S4096x4_S4x4_S4096x4_1_0_0_1_n_n.lhsBatch by decide), dif_pos (show (0 : Fin S4096x4.rank) ∈ dot_S4096x4_S4x4_S4096x4_1_0_0_1_n_n.lhsNonContracting by decide)]
  rfl
/-- … and along the contracted position; -/
theorem lhs_d6_1 (i : S4096x4.Idx) (q : dot_S4096x4_S4x4_S4096x4_1_0_0_1_n_n.contr.Idx) :
    (dot_S4096x4_S4x4_S4096x4_1_0_0_1_n_n.lhsIdx i q 1).val = (q ⟨0, by decide⟩).val :=
  dot_S4096x4_S4x4_S4096x4_1_0_0_1_n_n.lhsIdx_val_of_single rfl i q
/-- the right operand is read along the contracted position … -/
theorem rhs_d6_0 (i : S4096x4.Idx) (q : dot_S4096x4_S4x4_S4096x4_1_0_0_1_n_n.contr.Idx) :
    (dot_S4096x4_S4x4_S4096x4_1_0_0_1_n_n.rhsIdx i q 0).val = (q ⟨0, by decide⟩).val :=
  dot_S4096x4_S4x4_S4096x4_1_0_0_1_n_n.rhsIdx_val_of_single rfl i q
/-- … and at the output's column. -/
theorem rhs_d6_1 (i : S4096x4.Idx) (q : dot_S4096x4_S4x4_S4096x4_1_0_0_1_n_n.contr.Idx) :
    (dot_S4096x4_S4x4_S4096x4_1_0_0_1_n_n.rhsIdx i q 1).val = (i 1).val := by
  unfold DotDims.rhsIdx
  rw [dif_neg (show ¬(1 : Fin S4x4.rank) ∈ dot_S4096x4_S4x4_S4096x4_1_0_0_1_n_n.rhsBatch by decide), dif_pos (show (1 : Fin S4x4.rank) ∈ dot_S4096x4_S4x4_S4096x4_1_0_0_1_n_n.rhsNonContracting by decide)]
  rfl

/-- The left operand of this product is read at the output's row … -/
theorem lhs_d7_0 (i : S4096x1.Idx) (q : dot_S4096x4_S4x1_S4096x1_1_0_0_1_n_n.contr.Idx) :
    (dot_S4096x4_S4x1_S4096x1_1_0_0_1_n_n.lhsIdx i q 0).val = (i 0).val := by
  unfold DotDims.lhsIdx
  rw [dif_neg (show ¬(0 : Fin S4096x4.rank) ∈ dot_S4096x4_S4x1_S4096x1_1_0_0_1_n_n.lhsBatch by decide), dif_pos (show (0 : Fin S4096x4.rank) ∈ dot_S4096x4_S4x1_S4096x1_1_0_0_1_n_n.lhsNonContracting by decide)]
  rfl
/-- … and along the contracted position; -/
theorem lhs_d7_1 (i : S4096x1.Idx) (q : dot_S4096x4_S4x1_S4096x1_1_0_0_1_n_n.contr.Idx) :
    (dot_S4096x4_S4x1_S4096x1_1_0_0_1_n_n.lhsIdx i q 1).val = (q ⟨0, by decide⟩).val :=
  dot_S4096x4_S4x1_S4096x1_1_0_0_1_n_n.lhsIdx_val_of_single rfl i q
/-- the right operand is read along the contracted position … -/
theorem rhs_d7_0 (i : S4096x1.Idx) (q : dot_S4096x4_S4x1_S4096x1_1_0_0_1_n_n.contr.Idx) :
    (dot_S4096x4_S4x1_S4096x1_1_0_0_1_n_n.rhsIdx i q 0).val = (q ⟨0, by decide⟩).val :=
  dot_S4096x4_S4x1_S4096x1_1_0_0_1_n_n.rhsIdx_val_of_single rfl i q
/-- … and at the output's column. -/
theorem rhs_d7_1 (i : S4096x1.Idx) (q : dot_S4096x4_S4x1_S4096x1_1_0_0_1_n_n.contr.Idx) :
    (dot_S4096x4_S4x1_S4096x1_1_0_0_1_n_n.rhsIdx i q 1).val = (i 1).val := by
  unfold DotDims.rhsIdx
  rw [dif_neg (show ¬(1 : Fin S4x1.rank) ∈ dot_S4096x4_S4x1_S4096x1_1_0_0_1_n_n.rhsBatch by decide), dif_pos (show (1 : Fin S4x1.rank) ∈ dot_S4096x4_S4x1_S4096x1_1_0_0_1_n_n.rhsNonContracting by decide)]
  rfl

/-! ## A dense layer read at one row

The product of a block `[M, K]` with a weight `[K, N]` into the zero accumulator, plus a bias row `[1, N]` broadcast
down the rows, is at row `p` and column `j` the inner product of row `p` of the block with column `j` of the weight,
plus the bias at `j`. The changes of format in front of the product are the identity. -/

theorem dense_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (h : FVec Ideal ⟨2, ![M, K]⟩ .f32) (w : FVec Ideal ⟨2, ![K, N]⟩ .f32) (b : FVec Ideal ⟨2, ![1, N]⟩ .f32)
    (hlt : FTy.bits .bf16 < FTy.bits .f32)
    (hc : (⟨2, ![1, N]⟩ : Shape).ShapeCasts ⟨2, ![1, N]⟩) (hb : (⟨2, ![1, N]⟩ : Shape).Broadcasts ⟨2, ![M, N]⟩)
    (p : Fin M) (j : Fin N) :
    addf (matmul D none (truncf .bf16 h hlt) (truncf .bf16 w hlt) (constant (F := Ideal) ⟨2, ![M, N]⟩ .f32 0x00000000#32))
        (broadcastTo ⟨2, ![M, N]⟩ (shapeCast ⟨2, ![1, N]⟩ b hc) hb) (ix2 p j)
      = Cert.Spec.dense (fun a => h (ix2 p a)) (fun a j => w (ix2 a j)) (fun j => b (ix2 0 j)) j := by
  rw [addf_apply, Cert.Lib.Dot2.matmul_zero_ix2 D none hr hs hl0 hl1 hr0 hr1, shapeCast_self, broadcastTo_1b_ab_apply]
  rfl

/-- The dense layer over this product, read at row `p` and output feature `j`. -/
theorem dense_d1 (h : FVec Ideal S4096x8 .f32) (w : FVec Ideal S8x16 .f32) (b : FVec Ideal S1x16 .f32)
    (hlt : FTy.bits .bf16 < FTy.bits .f32) (hc : S1x16.ShapeCasts S1x16) (hb : S1x16.Broadcasts S4096x16) (p : Fin 4096) (j : Fin 16) :
    addf (matmul dot_S4096x8_S8x16_S4096x16_1_0_0_1_n_n none (truncf .bf16 h hlt) (truncf .bf16 w hlt) (constant (F := Ideal) S4096x16 .f32 0x00000000#32))
        (broadcastTo S4096x16 (shapeCast S1x16 b hc) hb) (ix2 p j)
      = Cert.Spec.dense (fun a => h (ix2 p a)) (fun a j => w (ix2 a j)) (fun j => b (ix2 0 j)) j :=
  dense_ix2 dot_S4096x8_S8x16_S4096x16_1_0_0_1_n_n rfl rfl lhs_d1_0 lhs_d1_1 rhs_d1_0 rhs_d1_1 h w b hlt hc hb p j

/-- The same layer followed by tanh. -/
theorem tanhLayer_d1 (h : FVec Ideal S4096x8 .f32) (w : FVec Ideal S8x16 .f32) (b : FVec Ideal S1x16 .f32)
    (hlt : FTy.bits .bf16 < FTy.bits .f32) (hc : S1x16.ShapeCasts S1x16) (hb : S1x16.Broadcasts S4096x16) (p : Fin 4096) (j : Fin 16) :
    tanh (addf (matmul dot_S4096x8_S8x16_S4096x16_1_0_0_1_n_n none (truncf .bf16 h hlt) (truncf .bf16 w hlt) (constant (F := Ideal) S4096x16 .f32 0x00000000#32))
        (broadcastTo S4096x16 (shapeCast S1x16 b hc) hb)) (ix2 p j)
      = Cert.Spec.tanhLayer (fun a => h (ix2 p a)) (fun a j => w (ix2 a j)) (fun j => b (ix2 0 j)) j :=
  congrArg Ideal.tanh (dense_d1 h w b hlt hc hb p j)

/-- The dense layer over this product, read at row `p` and output feature `j`. -/
theorem dense_d2 (h : FVec Ideal S4096x16 .f32) (w : FVec Ideal S16x16 .f32) (b : FVec Ideal S1x16 .f32)
    (hlt : FTy.bits .bf16 < FTy.bits .f32) (hc : S1x16.ShapeCasts S1x16) (hb : S1x16.Broadcasts S4096x16) (p : Fin 4096) (j : Fin 16) :
    addf (matmul dot_S4096x16_S16x16_S4096x16_1_0_0_1_n_n none (truncf .bf16 h hlt) (truncf .bf16 w hlt) (constant (F := Ideal) S4096x16 .f32 0x00000000#32))
        (broadcastTo S4096x16 (shapeCast S1x16 b hc) hb) (ix2 p j)
      = Cert.Spec.dense (fun a => h (ix2 p a)) (fun a j => w (ix2 a j)) (fun j => b (ix2 0 j)) j :=
  dense_ix2 dot_S4096x16_S16x16_S4096x16_1_0_0_1_n_n rfl rfl lhs_d2_0 lhs_d2_1 rhs_d2_0 rhs_d2_1 h w b hlt hc hb p j

/-- The same layer followed by tanh. -/
theorem tanhLayer_d2 (h : FVec Ideal S4096x16 .f32) (w : FVec Ideal S16x16 .f32) (b : FVec Ideal S1x16 .f32)
    (hlt : FTy.bits .bf16 < FTy.bits .f32) (hc : S1x16.ShapeCasts S1x16) (hb : S1x16.Broadcasts S4096x16) (p : Fin 4096) (j : Fin 16) :
    tanh (addf (matmul dot_S4096x16_S16x16_S4096x16_1_0_0_1_n_n none (truncf .bf16 h hlt) (truncf .bf16 w hlt) (constant (F := Ideal) S4096x16 .f32 0x00000000#32))
        (broadcastTo S4096x16 (shapeCast S1x16 b hc) hb)) (ix2 p j)
      = Cert.Spec.tanhLayer (fun a => h (ix2 p a)) (fun a j => w (ix2 a j)) (fun j => b (ix2 0 j)) j :=
  congrArg Ideal.tanh (dense_d2 h w b hlt hc hb p j)

/-- The dense layer over this product, read at row `p` and output feature `j`. -/
theorem dense_d3 (h : FVec Ideal S4096x16 .f32) (w : FVec Ideal S16x12 .f32) (b : FVec Ideal S1x12 .f32)
    (hlt : FTy.bits .bf16 < FTy.bits .f32) (hc : S1x12.ShapeCasts S1x12) (hb : S1x12.Broadcasts S4096x12) (p : Fin 4096) (j : Fin 12) :
    addf (matmul dot_S4096x16_S16x12_S4096x12_1_0_0_1_n_n none (truncf .bf16 h hlt) (truncf .bf16 w hlt) (constant (F := Ideal) S4096x12 .f32 0x00000000#32))
        (broadcastTo S4096x12 (shapeCast S1x12 b hc) hb) (ix2 p j)
      = Cert.Spec.dense (fun a => h (ix2 p a)) (fun a j => w (ix2 a j)) (fun j => b (ix2 0 j)) j :=
  dense_ix2 dot_S4096x16_S16x12_S4096x12_1_0_0_1_n_n rfl rfl lhs_d3_0 lhs_d3_1 rhs_d3_0 rhs_d3_1 h w b hlt hc hb p j

/-- The same layer followed by tanh. -/
theorem tanhLayer_d3 (h : FVec Ideal S4096x16 .f32) (w : FVec Ideal S16x12 .f32) (b : FVec Ideal S1x12 .f32)
    (hlt : FTy.bits .bf16 < FTy.bits .f32) (hc : S1x12.ShapeCasts S1x12) (hb : S1x12.Broadcasts S4096x12) (p : Fin 4096) (j : Fin 12) :
    tanh (addf (matmul dot_S4096x16_S16x12_S4096x12_1_0_0_1_n_n none (truncf .bf16 h hlt) (truncf .bf16 w hlt) (constant (F := Ideal) S4096x12 .f32 0x00000000#32))
        (broadcastTo S4096x12 (shapeCast S1x12 b hc) hb)) (ix2 p j)
      = Cert.Spec.tanhLayer (fun a => h (ix2 p a)) (fun a j => w (ix2 a j)) (fun j => b (ix2 0 j)) j :=
  congrArg Ideal.tanh (dense_d3 h w b hlt hc hb p j)

/-- The dense layer over this product, read at row `p` and output feature `j`. -/
theorem dense_d4 (h : FVec Ideal S4096x12 .f32) (w : FVec Ideal S12x8 .f32) (b : FVec Ideal S1x8 .f32)
    (hlt : FTy.bits .bf16 < FTy.bits .f32) (hc : S1x8.ShapeCasts S1x8) (hb : S1x8.Broadcasts S4096x8) (p : Fin 4096) (j : Fin 8) :
    addf (matmul dot_S4096x12_S12x8_S4096x8_1_0_0_1_n_n none (truncf .bf16 h hlt) (truncf .bf16 w hlt) (constant (F := Ideal) S4096x8 .f32 0x00000000#32))
        (broadcastTo S4096x8 (shapeCast S1x8 b hc) hb) (ix2 p j)
      = Cert.Spec.dense (fun a => h (ix2 p a)) (fun a j => w (ix2 a j)) (fun j => b (ix2 0 j)) j :=
  dense_ix2 dot_S4096x12_S12x8_S4096x8_1_0_0_1_n_n rfl rfl lhs_d4_0 lhs_d4_1 rhs_d4_0 rhs_d4_1 h w b hlt hc hb p j

/-- The same layer followed by tanh. -/
theorem tanhLayer_d4 (h : FVec Ideal S4096x12 .f32) (w : FVec Ideal S12x8 .f32) (b : FVec Ideal S1x8 .f32)
    (hlt : FTy.bits .bf16 < FTy.bits .f32) (hc : S1x8.ShapeCasts S1x8) (hb : S1x8.Broadcasts S4096x8) (p : Fin 4096) (j : Fin 8) :
    tanh (addf (matmul dot_S4096x12_S12x8_S4096x8_1_0_0_1_n_n none (truncf .bf16 h hlt) (truncf .bf16 w hlt) (constant (F := Ideal) S4096x8 .f32 0x00000000#32))
        (broadcastTo S4096x8 (shapeCast S1x8 b hc) hb)) (ix2 p j)
      = Cert.Spec.tanhLayer (fun a => h (ix2 p a)) (fun a j => w (ix2 a j)) (fun j => b (ix2 0 j)) j :=
  congrArg Ideal.tanh (dense_d4 h w b hlt hc hb p j)

/-- The dense layer over this product, read at row `p` and output feature `j`. -/
theorem dense_d5 (h : FVec Ideal S4096x8 .f32) (w : FVec Ideal S8x4 .f32) (b : FVec Ideal S1x4 .f32)
    (hlt : FTy.bits .bf16 < FTy.bits .f32) (hc : S1x4.ShapeCasts S1x4) (hb : S1x4.Broadcasts S4096x4) (p : Fin 4096) (j : Fin 4) :
    addf (matmul dot_S4096x8_S8x4_S4096x4_1_0_0_1_n_n none (truncf .bf16 h hlt) (truncf .bf16 w hlt) (constant (F := Ideal) S4096x4 .f32 0x00000000#32))
        (broadcastTo S4096x4 (shapeCast S1x4 b hc) hb) (ix2 p j)
      = Cert.Spec.dense (fun a => h (ix2 p a)) (fun a j => w (ix2 a j)) (fun j => b (ix2 0 j)) j :=
  dense_ix2 dot_S4096x8_S8x4_S4096x4_1_0_0_1_n_n rfl rfl lhs_d5_0 lhs_d5_1 rhs_d5_0 rhs_d5_1 h w b hlt hc hb p j

/-- The same layer followed by tanh. -/
theorem tanhLayer_d5 (h : FVec Ideal S4096x8 .f32) (w : FVec Ideal S8x4 .f32) (b : FVec Ideal S1x4 .f32)
    (hlt : FTy.bits .bf16 < FTy.bits .f32) (hc : S1x4.ShapeCasts S1x4) (hb : S1x4.Broadcasts S4096x4) (p : Fin 4096) (j : Fin 4) :
    tanh (addf (matmul dot_S4096x8_S8x4_S4096x4_1_0_0_1_n_n none (truncf .bf16 h hlt) (truncf .bf16 w hlt) (constant (F := Ideal) S4096x4 .f32 0x00000000#32))
        (broadcastTo S4096x4 (shapeCast S1x4 b hc) hb)) (ix2 p j)
      = Cert.Spec.tanhLayer (fun a => h (ix2 p a)) (fun a j => w (ix2 a j)) (fun j => b (ix2 0 j)) j :=
  congrArg Ideal.tanh (dense_d5 h w b hlt hc hb p j)

/-- The dense layer over this product, read at row `p` and output feature `j`. -/
theorem dense_d6 (h : FVec Ideal S4096x4 .f32) (w : FVec Ideal S4x4 .f32) (b : FVec Ideal S1x4 .f32)
    (hlt : FTy.bits .bf16 < FTy.bits .f32) (hc : S1x4.ShapeCasts S1x4) (hb : S1x4.Broadcasts S4096x4) (p : Fin 4096) (j : Fin 4) :
    addf (matmul dot_S4096x4_S4x4_S4096x4_1_0_0_1_n_n none (truncf .bf16 h hlt) (truncf .bf16 w hlt) (constant (F := Ideal) S4096x4 .f32 0x00000000#32))
        (broadcastTo S4096x4 (shapeCast S1x4 b hc) hb) (ix2 p j)
      = Cert.Spec.dense (fun a => h (ix2 p a)) (fun a j => w (ix2 a j)) (fun j => b (ix2 0 j)) j :=
  dense_ix2 dot_S4096x4_S4x4_S4096x4_1_0_0_1_n_n rfl rfl lhs_d6_0 lhs_d6_1 rhs_d6_0 rhs_d6_1 h w b hlt hc hb p j

/-- The same layer followed by tanh. -/
theorem tanhLayer_d6 (h : FVec Ideal S4096x4 .f32) (w : FVec Ideal S4x4 .f32) (b : FVec Ideal S1x4 .f32)
    (hlt : FTy.bits .bf16 < FTy.bits .f32) (hc : S1x4.ShapeCasts S1x4) (hb : S1x4.Broadcasts S4096x4) (p : Fin 4096) (j : Fin 4) :
    tanh (addf (matmul dot_S4096x4_S4x4_S4096x4_1_0_0_1_n_n none (truncf .bf16 h hlt) (truncf .bf16 w hlt) (constant (F := Ideal) S4096x4 .f32 0x00000000#32))
        (broadcastTo S4096x4 (shapeCast S1x4 b hc) hb)) (ix2 p j)
      = Cert.Spec.tanhLayer (fun a => h (ix2 p a)) (fun a j => w (ix2 a j)) (fun j => b (ix2 0 j)) j :=
  congrArg Ideal.tanh (dense_d6 h w b hlt hc hb p j)

/-- The dense layer over this product, read at row `p` and output feature `j`. -/
theorem dense_d7 (h : FVec Ideal S4096x4 .f32) (w : FVec Ideal S4x1 .f32) (b : FVec Ideal S1x1 .f32)
    (hlt : FTy.bits .bf16 < FTy.bits .f32) (hc : S1x1.ShapeCasts S1x1) (hb : S1x1.Broadcasts S4096x1) (p : Fin 4096) (j : Fin 1) :
    addf (matmul dot_S4096x4_S4x1_S4096x1_1_0_0_1_n_n none (truncf .bf16 h hlt) (truncf .bf16 w hlt) (constant (F := Ideal) S4096x1 .f32 0x00000000#32))
        (broadcastTo S4096x1 (shapeCast S1x1 b hc) hb) (ix2 p j)
      = Cert.Spec.dense (fun a => h (ix2 p a)) (fun a j => w (ix2 a j)) (fun j => b (ix2 0 j)) j :=
  dense_ix2 dot_S4096x4_S4x1_S4096x1_1_0_0_1_n_n rfl rfl lhs_d7_0 lhs_d7_1 rhs_d7_0 rhs_d7_1 h w b hlt hc hb p j

/-! ## The stages of the body at one row -/

/-- The normalised block at row `p`, feature `j`: the four resident rows are broadcast down the block. -/
theorem normed_ix2 (x0 : FVec Ideal S4096x8 .f32) (x1 x2 x3 x4 : FVec Ideal S1x8 .f32)
    (hc : S1x8.ShapeCasts S1x8) (hb : S1x8.Broadcasts S4096x8) (p : Fin 4096) (j : Fin 8) :
    addf (mulf (mulf (subf x0 (broadcastTo S4096x8 (shapeCast S1x8 x1 hc) hb))
            (broadcastTo S4096x8 (rsqrt (addf (shapeCast S1x8 x2 hc) (broadcast S1x8 (Scalar.ofBits (F := Ideal) .f32 0x3727C5AC#32)))) hb))
          (broadcastTo S4096x8 (shapeCast S1x8 x3 hc) hb))
        (broadcastTo S4096x8 (shapeCast S1x8 x4 hc) hb) (ix2 p j)
      = Cert.Spec.normed (fun q => x0 (ix2 p q)) (fun q => x1 (ix2 0 q)) (fun q => x2 (ix2 0 q)) (fun q => x3 (ix2 0 q))
          (fun q => x4 (ix2 0 q)) j := by
  rw [addf_apply, mulf_apply, mulf_apply, subf_apply, broadcastTo_1b_ab_apply, broadcastTo_1b_ab_apply,
    broadcastTo_1b_ab_apply, broadcastTo_1b_ab_apply, shapeCast_self, shapeCast_self, shapeCast_self, shapeCast_self]
  rfl

/-- The first part of the body, read at row `p`: the first two tanh layers on the normalised row. -/
theorem pay2_ix2 (x0 : Vec Ideal S4096x8 .f32) (x1 x2 x3 x4 : Vec Ideal S1x8 .f32) (x5 : Vec Ideal S8x16 .f32)
    (x6 : Vec Ideal S1x16 .f32) (x7 : Vec Ideal S16x16 .f32) (x8 : Vec Ideal S1x16 .f32) (p : Fin 4096) (j : Fin 16) :
    k1_pay2 (F := Ideal) x0 x1 x2 x3 x4 x5 x6 x7 x8 (ix2 p j)
      = Cert.Spec.tanhLayer
          (Cert.Spec.tanhLayer
            (Cert.Spec.normed (fun q => x0 (ix2 p q)) (fun q => x1 (ix2 0 q)) (fun q => x2 (ix2 0 q))
              (fun q => x3 (ix2 0 q)) (fun q => x4 (ix2 0 q)))
            (fun a j => x5 (ix2 a j)) (fun j => x6 (ix2 0 j)))
          (fun a j => x7 (ix2 a j)) (fun j => x8 (ix2 0 j)) j := by
  unfold k1_pay2
  refine (tanhLayer_d2 _ _ _ _ _ _ p j).trans ?_
  refine congrArg (fun h => Cert.Spec.tanhLayer h _ _ j) (funext fun a => ?_)
  refine (tanhLayer_d1 _ _ _ _ _ _ p a).trans ?_
  refine congrArg (fun h => Cert.Spec.tanhLayer h _ _ a) (funext fun q => ?_)
  exact normed_ix2 _ _ _ _ _ _ _ p q

/-- The second part of the body, read at row `p`: four more tanh layers on row `p` of what the first part left. -/
theorem pay3_ix2 (v : FVec Ideal S4096x16 .f32) (x9 : Vec Ideal S16x12 .f32)
    (x10 : Vec Ideal S1x12 .f32) (x11 : Vec Ideal S12x8 .f32) (x12 : Vec Ideal S1x8 .f32) (x13 : Vec Ideal S8x4 .f32)
    (x14 : Vec Ideal S1x4 .f32) (x15 : Vec Ideal S4x4 .f32) (x16 : Vec Ideal S1x4 .f32) (p : Fin 4096) (j : Fin 4) :
    k1_pay3 (F := Ideal) v x9 x10 x11 x12 x13 x14 x15 x16 (ix2 p j)
      = Cert.Spec.tanhLayer
          (Cert.Spec.tanhLayer
            (Cert.Spec.tanhLayer
              (Cert.Spec.tanhLayer (fun a => v (ix2 p a)) (fun a j => x9 (ix2 a j)) (fun j => x10 (ix2 0 j)))
              (fun a j => x11 (ix2 a j)) (fun j => x12 (ix2 0 j)))
            (fun a j => x13 (ix2 a j)) (fun j => x14 (ix2 0 j)))
          (fun a j => x15 (ix2 a j)) (fun j => x16 (ix2 0 j)) j := by
  unfold k1_pay3
  refine (tanhLayer_d6 _ _ _ _ _ _ p j).trans ?_
  refine congrArg (fun h => Cert.Spec.tanhLayer h _ _ j) (funext fun a => ?_)
  refine (tanhLayer_d5 _ _ _ _ _ _ p a).trans ?_
  refine congrArg (fun h => Cert.Spec.tanhLayer h _ _ a) (funext fun b => ?_)
  refine (tanhLayer_d4 _ _ _ _ _ _ p b).trans ?_
  refine congrArg (fun h => Cert.Spec.tanhLayer h _ _ b) (funext fun c => ?_)
  exact tanhLayer_d3 _ _ _ _ _ _ p c

/-- The rectified dense layer added back to its input, read at row `p`. -/
theorem resid_ix2 (h : FVec Ideal S4096x4 .f32) (w : FVec Ideal S4x4 .f32) (b : FVec Ideal S1x4 .f32)
    (hlt : FTy.bits .bf16 < FTy.bits .f32) (hc : S1x4.ShapeCasts S1x4) (hb : S1x4.Broadcasts S4096x4) (p : Fin 4096) (j : Fin 4) :
    addf h (maximumf
        (addf (matmul dot_S4096x4_S4x4_S4096x4_1_0_0_1_n_n none (truncf .bf16 h hlt) (truncf .bf16 w hlt)
            (constant (F := Ideal) S4096x4 .f32 0x00000000#32)) (broadcastTo S4096x4 (shapeCast S1x4 b hc) hb))
        (broadcast S4096x4 (Scalar.ofBits (F := Ideal) .f32 0x00000000#32))) (ix2 p j)
      = h (ix2 p j) + max (Cert.Spec.dense (fun a => h (ix2 p a)) (fun a j => w (ix2 a j)) (fun j => b (ix2 0 j)) j) Cert.Spec.zero := by
  rw [addf_apply, maximumf_apply, dense_d6]
  rfl

/-- The two parts composed: what the second part leaves at row `p` is six tanh layers on the normalised row `p`. -/
theorem pay32_ix2 (x0 : Vec Ideal S4096x8 .f32) (x1 x2 x3 x4 : Vec Ideal S1x8 .f32) (x5 : Vec Ideal S8x16 .f32)
    (x6 : Vec Ideal S1x16 .f32) (x7 : Vec Ideal S16x16 .f32) (x8 : Vec Ideal S1x16 .f32) (x9 : Vec Ideal S16x12 .f32)
    (x10 : Vec Ideal S1x12 .f32) (x11 : Vec Ideal S12x8 .f32) (x12 : Vec Ideal S1x8 .f32) (x13 : Vec Ideal S8x4 .f32)
    (x14 : Vec Ideal S1x4 .f32) (x15 : Vec Ideal S4x4 .f32) (x16 : Vec Ideal S1x4 .f32) (p : Fin 4096) (c : Fin 4) :
    k1_pay3 (F := Ideal) (k1_pay2 x0 x1 x2 x3 x4 x5 x6 x7 x8) x9 x10 x11 x12 x13 x14 x15 x16 (ix2 p c)
      = Cert.Spec.tanhLayer
          (Cert.Spec.tanhLayer
            (Cert.Spec.tanhLayer
              (Cert.Spec.tanhLayer
                (Cert.Spec.tanhLayer
                  (Cert.Spec.tanhLayer
                    (Cert.Spec.normed (fun q => x0 (ix2 p q)) (fun q => x1 (ix2 0 q)) (fun q => x2 (ix2 0 q))
                      (fun q => x3 (ix2 0 q)) (fun q => x4 (ix2 0 q)))
                    (fun a j => x5 (ix2 a j)) (fun j => x6 (ix2 0 j)))
                  (fun a j => x7 (ix2 a j)) (fun j => x8 (ix2 0 j)))
                (fun a j => x9 (ix2 a j)) (fun j => x10 (ix2 0 j)))
              (fun a j => x11 (ix2 a j)) (fun j => x12 (ix2 0 j)))
            (fun a j => x13 (ix2 a j)) (fun j => x14 (ix2 0 j)))
          (fun a j => x15 (ix2 a j)) (fun j => x16 (ix2 0 j)) c := by
  refine (pay3_ix2 _ _ _ _ _ _ _ _ _ p c).trans ?_
  refine congrArg (fun h => Cert.Spec.tanhLayer (Cert.Spec.tanhLayer (Cert.Spec.tanhLayer (Cert.Spec.tanhLayer h _ _) _ _) _ _) _ _ c)
    (funext fun a => ?_)
  exact pay2_ix2 x0 x1 x2 x3 x4 x5 x6 x7 x8 p a

/-- The value the body stores for row `p` of its block is the network on that row, with the statistics and the
    parameters read off the resident arrays. -/
theorem pay_row (x0 : Vec Ideal S4096x8 .f32) (x1 x2 x3 x4 : Vec Ideal S1x8 .f32) (x5 : Vec Ideal S8x16 .f32)
    (x6 : Vec Ideal S1x16 .f32) (x7 : Vec Ideal S16x16 .f32) (x8 : Vec Ideal S1x16 .f32) (x9 : Vec Ideal S16x12 .f32)
    (x10 : Vec Ideal S1x12 .f32) (x11 : Vec Ideal S12x8 .f32) (x12 : Vec Ideal S1x8 .f32) (x13 : Vec Ideal S8x4 .f32)
    (x14 : Vec Ideal S1x4 .f32) (x15 : Vec Ideal S4x4 .f32) (x16 : Vec Ideal S1x4 .f32) (x17 : Vec Ideal S4x4 .f32)
    (x18 : Vec Ideal S1x4 .f32) (x19 : Vec Ideal S4x1 .f32) (x20 : Vec Ideal S1x1 .f32) (p : Fin 4096) :
    k1_pay1 (F := Ideal) (k1_pay3 (k1_pay2 x0 x1 x2 x3 x4 x5 x6 x7 x8) x9 x10 x11 x12 x13 x14 x15 x16)
        (k1_pay4 (k1_pay2 x0 x1 x2 x3 x4 x5 x6 x7 x8) x9 x10 x11 x12 x13 x14 x15 x16) x17 x18 x19 x20 (ix2 p (0 : Fin 1))
      = Cert.Spec.net (fun q => x0 (ix2 p q)) (fun q => x1 (ix2 0 q)) (fun q => x2 (ix2 0 q)) (fun q => x3 (ix2 0 q))
          (fun q => x4 (ix2 0 q))
          (fun a j => x5 (ix2 a j)) (fun j => x6 (ix2 0 j)) (fun a j => x7 (ix2 a j)) (fun j => x8 (ix2 0 j))
          (fun a j => x9 (ix2 a j)) (fun j => x10 (ix2 0 j)) (fun a j => x11 (ix2 a j)) (fun j => x12 (ix2 0 j))
          (fun a j => x13 (ix2 a j)) (fun j => x14 (ix2 0 j)) (fun a j => x15 (ix2 a j)) (fun j => x16 (ix2 0 j))
          (fun a j => x17 (ix2 a j)) (fun j => x18 (ix2 0 j)) (fun a j => x19 (ix2 a j)) (fun j => x20 (ix2 0 j)) := by
  unfold k1_pay1 k1_pay4
  refine (congrArg Ideal.logistic (dense_d7 _ _ _ _ _ _ p 0)).trans ?_
  unfold Cert.Spec.net
  refine congrArg Ideal.logistic (congrArg (fun h => Cert.Spec.dense h _ _ 0) (funext fun a => ?_))
  refine (resid_ix2 _ _ _ _ _ _ p a).trans ?_
  simp only [pay32_ix2]

end Cert.KernelIdeal.Row

end
-- ==== Proof.KValue.lean ====
/-
  The second kernel region: from what each grid point writes back to the whole result array.

  The region walks the batch in 256 blocks of 4096 rows. At point t its first window holds rows 4096 t … 4096 t + 4095
  of the batch, every other input window holds the whole of its (small) array, and the body's one store fills the
  output block, which is written back to rows 4096 t … 4096 t + 4095 of the result. The value stored for row p of the
  block is the network on row p of the block (the row lemma), that is, on row 4096 t + p of the batch. Every row r of
  the result lies in exactly the block of point r / 4096, so after the run the result array holds, at row r, the
  network on row r of the batch, with the statistics and parameters the region was entered with.
-/
import proofs.«148413_j65481071403406_1_alg».proof.Proof.Gen.KernelIdeal.Frame
import proofs.«148413_j65481071403406_1_alg».proof.Proof.KernelRow
import proofs.«148413_j65481071403406_1_alg».proof.Proof.Resident
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Resident Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits at a grid point -/

/-- The batch window and the result window move with the point: block (t, 0). -/
theorem idx_moving : ∀ t : Fin cfg1.N, win1_0.index t (0 : Fin 2) = t.val ∧ win1_0.index t (1 : Fin 2) = 0
    ∧ win1_21.index t (0 : Fin 2) = t.val ∧ win1_21.index t (1 : Fin 2) = 0 :=
  (by decide +kernel : ∀ t : Fin grid1.N, _)

/-! ## What each window's block holds -/

/-- Row `p` of the batch window's block at point `t` is row `4096 t + p` of the batch. -/
theorem blk0 (c : Dev nD) (t : Fin cfg1.N) (p : Fin 4096) (q : Fin 8) (r : Fin 1048576) (hr : r.val = 4096 * t.val + p.val) :
    (iblk1 V c 0 t : Vec Ideal S4096x8 .f32) (ix2 p q) = V c main_arg0 (ix2 r q) := by
  obtain ⟨h0, h1, -, -⟩ := idx_moving t
  unfold iblk1
  rw [View.read_apply]
  show V c main_arg0 _ = V c main_arg0 _
  congr 1
  funext d
  apply Fin.ext
  match d with
  | ⟨0, _⟩ => show win1_0.index t (0 : Fin 2) * 4096 + 1 * p.val = r.val; rw [h0, hr]; omega
  | ⟨1, _⟩ => show win1_0.index t (1 : Fin 2) * 8 + 1 * q.val = q.val; rw [h1]; omega

/-! ## The result array as one function of the arrays the region is entered with -/

/-- The network on row `r` of the batch, its statistics and parameters read off the arrays as the region finds them. -/
def rowNet (c : Dev nD) (r : Fin 1048576) : EReal :=
  Cert.Spec.net (fun q => V c main_arg0 (ix2 r q)) (fun q => V c main_v2 (ix2 0 q)) (fun q => V c main_v6 (ix2 0 q))
    (fun q => V c main_v7 (ix2 0 q)) (fun q => V c main_v8 (ix2 0 q))
    (fun a j => V c main_arg3 (ix2 a j)) (fun j => V c main_v9 (ix2 0 j))
    (fun a j => V c main_arg5 (ix2 a j)) (fun j => V c main_v10 (ix2 0 j))
    (fun a j => V c main_arg7 (ix2 a j)) (fun j => V c main_v11 (ix2 0 j))
    (fun a j => V c main_arg9 (ix2 a j)) (fun j => V c main_v12 (ix2 0 j))
    (fun a j => V c main_arg11 (ix2 a j)) (fun j => V c main_v13 (ix2 0 j))
    (fun a j => V c main_arg13 (ix2 a j)) (fun j => V c main_v14 (ix2 0 j))
    (fun a j => V c main_arg15 (ix2 a j)) (fun j => V c main_v15 (ix2 0 j))
    (fun a j => V c main_arg17 (ix2 a j)) (fun j => V c main_v16 (ix2 0 j))

/-- The result array: at row `r` (its one column), the network on row `r` of the batch. -/
def result (c : Dev nD) : S1048576x1.Idx → EReal := fun i => rowNet V c ⟨(i 0).val, idx2_lt0 i⟩

/-- What point `t` writes back is block `t` of `result`. -/
theorem flushed_eq (c : Dev nD) (t : Fin cfg1.N) :
    (dat1 V c).flushed 21 t = ((cfg1.win 21).blk t).view.read (Elt Ideal) (result V c) := by
  show (cfg1.win 21).cut (grid1.coords t) ((dat1 V c).after 21 t) = _
  rw [after1_21]
  unfold out1_21
  rw [View.canon_unit_zero hz]
  simp only [View.ld_unit_zero (S := S4096x8) hz, View.ld_unit_zero (S := S1x8) hz, View.ld_unit_zero (S := S8x16) hz,
    View.ld_unit_zero (S := S1x16) hz, View.ld_unit_zero (S := S16x16) hz, View.ld_unit_zero (S := S16x12) hz,
    View.ld_unit_zero (S := S1x12) hz, View.ld_unit_zero (S := S12x8) hz, View.ld_unit_zero (S := S8x4) hz,
    View.ld_unit_zero (S := S1x4) hz, View.ld_unit_zero (S := S4x4) hz, View.ld_unit_zero (S := S4x1) hz,
    View.ld_unit_zero (S := S1x1) hz]
  funext y
  obtain ⟨p, z, rfl⟩ : ∃ (p : Fin 4096) (z : Fin 1), y = ix2 p z := ⟨y 0, y 1, eq_ix2 y⟩
  obtain rfl : z = 0 := Subsingleton.elim _ _
  refine (Cert.KernelIdeal.Row.pay_row (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t) (iblk1 V c 11 t)
    (iblk1 V c 12 t) (iblk1 V c 13 t) (iblk1 V c 14 t) (iblk1 V c 15 t) (iblk1 V c 16 t) (iblk1 V c 17 t) (iblk1 V c 18 t)
    (iblk1 V c 19 t) (iblk1 V c 20 t) p).trans ?_
  obtain ⟨-, -, h2, -⟩ := idx_moving t
  have hN : t.val < 256 := lt_of_lt_of_eq t.isLt (show cfg1.N = 256 from N_1)
  obtain ⟨r, hr, hG⟩ : ∃ r : Fin 1048576, r.val = 4096 * t.val + p.val
      ∧ result V c (((cfg1.win 21).blk t).view.emb (ix2 p (0 : Fin 1))) = rowNet V c r :=
    ⟨⟨_, idx2_lt0 (((cfg1.win 21).blk t).view.emb (ix2 p (0 : Fin 1)))⟩, by
      show win1_21.index t (0 : Fin 2) * 4096 + 1 * p.val = _
      rw [h2]; omega, rfl⟩
  show _ = result V c (((cfg1.win 21).blk t).view.emb (ix2 p (0 : Fin 1)))
  rw [hG]
  unfold rowNet
  simp only [fun q => blk0 V c t p q r hr, res1 V c t, res2 V c t, res3 V c t, res4 V c t, res5 V c t, res6 V c t, res7 V c t,
    res8 V c t, res9 V c t, res10 V c t, res11 V c t, res12 V c t, res13 V c t, res14 V c t, res15 V c t, res16 V c t,
    res17 V c t, res18 V c t, res19 V c t, res20 V c t]

/-- An index of the result is in point `t`'s block iff its row lies in that block's range of 4096 rows. -/
theorem mem_blk (t : Fin cfg1.N) (i : S1048576x1.Idx) :
    i ∈ ((cfg1.win 21).blk t).view.set ↔ ∀ a : Fin 2, win1_21.index t a * S4096x1.size a ≤ (i a).val ∧ (i a).val < win1_21.index t a * S4096x1.size a + S4096x1.size a := by
  show i ∈ ((View.whole main_v17).slice (win1_21.rect t)).set ↔ _
  rw [View.set_slice_whole, Rect.mem_set_unit]
  exact Iff.rfl

/-- Every row of the result lies in the block of the point that is its quotient by 4096. -/
theorem cover (i : S1048576x1.Idx) : ∃ t : Fin cfg1.N, (cfg1.win 21).flush t = true ∧ i ∈ ((cfg1.win 21).blk t).view.set := by
  have hN : cfg1.N = 256 := N_1
  have hi0 : (i 0).val < 1048576 := idx2_lt0 i
  have hi1 : (i 1).val < 1 := idx2_lt1 i
  have ht : (i 0).val / 4096 < cfg1.N := by rw [hN]; omega
  obtain ⟨-, -, h2, h3⟩ := idx_moving ⟨(i 0).val / 4096, ht⟩
  refine ⟨⟨(i 0).val / 4096, ht⟩, flush1_21 _, ?_⟩
  rw [mem_blk]
  intro a
  match a with
  | ⟨0, _⟩ =>
    show win1_21.index ⟨(i 0).val / 4096, ht⟩ (0 : Fin 2) * 4096 ≤ (i 0).val ∧ (i 0).val < win1_21.index ⟨(i 0).val / 4096, ht⟩ (0 : Fin 2) * 4096 + 4096
    rw [h2]; dsimp only; omega
  | ⟨1, _⟩ =>
    show win1_21.index ⟨(i 0).val / 4096, ht⟩ (1 : Fin 2) * 1 ≤ (i 1).val ∧ (i 1).val < win1_21.index ⟨(i 0).val / 4096, ht⟩ (1 : Fin 2) * 1 + 1
    rw [h3]; omega

/-- After the region, its result array holds `result`. -/
theorem final (c : Dev nD) : (dat1 V c).arrAt 21 cfg1.N = result V c :=
  (dat1 V c).arrAt_eq_of_cover 21 (result V c) (fun t _ => flushed_eq V c t) (cover)

end Cert.KernelIdeal.KValue

end
-- ==== Proof.Stats.lean ====
/-
  The first kernel region: per-feature sums over the whole batch.

  The region walks the batch in 256 blocks of 4096 rows. Its two outputs are one 1×8 block each, whose index never
  moves, so each stays in its staging buffer from point to point and is written back once, after the last point. At
  point 0 the body stores zeros and then adds the block's column sums (of x, and of x·x); at every later point it
  adds the block's column sums to what the point before left. So after point n the buffers hold the column sums of
  the first n+1 blocks, and after the last point the column sums of the whole batch: row r of the batch is row
  r mod 4096 of block r / 4096, and the extended reals' addition is commutative and associative, so the blockwise
  order of summation does not matter.
-/
import proofs.«148413_j65481071403406_1_alg».proof.Proof.Gen.KernelIdeal.Frame
import proofs.«148413_j65481071403406_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stats

open Cert.KernelIdeal Cert.KernelIdeal.Gen Idealize.ShloMosaic Idealize.ShloMosaic.TcCoe Idealize.ShloMosaic.ValueIdx Idealize.SL.Sem
open Idealize.ShloMosaic.Pipeline (Dat)

section Pieces
variable {F : FTy → Type} [FloatOps F]

/-- The zero offsets of a whole 2-axis block, however they are spelt. -/
theorem hz : (![0, 0] : Fin 2 → Nat) = fun _ => 0 := funext fun a => by fin_cases a <;> rfl

/-- A later point (the reset not taken): the first buffer, holding `xo1`, is left at the update of `xo1` by the block. -/
theorem out_B_1 (c : Dev nD) (i : grid0.Coords) (a1 : Memref sig .tc .vmem S4096x8 .f32) (h1 : a1.IsWhole)
    (a2 : Memref sig .tc .vmem S1x8 .f32) (h2 : a2.IsWhole) (a3 : Memref sig .tc .vmem S1x8 .f32) (h3 : a3.IsWhole)
    (hc : ¬cond0_0 i) (x : Vec F S4096x8 .f32) (xo1 xo2 : Vec F S1x8 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero (S := S1x8) hz]
  simp only [View.readAt_eq_ld, h1.read_unread, h2.read_unread, View.ld_unit_zero (S := S1x8) hz,
    View.ld_unit_zero (S := S4096x8) hz]

/-- A later point: the second buffer, holding `xo2`, is left at the update of `xo2` by the block's squares. -/
theorem out_B_2 (c : Dev nD) (i : grid0.Coords) (a1 : Memref sig .tc .vmem S4096x8 .f32) (h1 : a1.IsWhole)
    (a2 : Memref sig .tc .vmem S1x8 .f32) (h2 : a2.IsWhole) (a3 : Memref sig .tc .vmem S1x8 .f32) (h3 : a3.IsWhole)
    (hc : ¬cond0_0 i) (x : Vec F S4096x8 .f32) (xo1 xo2 : Vec F S1x8 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero (S := S1x8) hz]
  simp only [View.readAt_eq_ld, h1.read_unread, h3.read_unread, View.ld_unit_zero (S := S1x8) hz,
    View.ld_unit_zero (S := S4096x8) hz]

/-- The first point (the reset taken): the zero block is stored, read back, and updated by the block. -/
theorem out_A_1 (c : Dev nD) (i : grid0.Coords) (a1 : Memref sig .tc .vmem S4096x8 .f32) (h1 : a1.IsWhole)
    (a2 : Memref sig .tc .vmem S1x8 .f32) (h2 : a2.IsWhole) (a3 : Memref sig .tc .vmem S1x8 .f32) (h3 : a3.IsWhole)
    (hc : cond0_0 i) (x : Vec F S4096x8 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x8) hz, View.readCov_unit_zero (S := S1x8) _ hz]
  simp only [View.readAt_eq_ld, h1.read_unread, View.ld_unit_zero (S := S4096x8) hz]

/-- The first point, second buffer: the zero block is stored, read back, and updated by the block's squares. -/
theorem out_A_2 (c : Dev nD) (i : grid0.Coords) (a1 : Memref sig .tc .vmem S4096x8 .f32) (h1 : a1.IsWhole)
    (a2 : Memref sig .tc .vmem S1x8 .f32) (h2 : a2.IsWhole) (a3 : Memref sig .tc .vmem S1x8 .f32) (h3 : a3.IsWhole)
    (hc : cond0_0 i) (x : Vec F S4096x8 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x8) hz, View.readCov_unit_zero (S := S1x8) _ hz]
  simp only [View.readAt_eq_ld, h1.read_unread, View.ld_unit_zero (S := S4096x8) hz]

end Pieces

section Payloads

/-- The index of the block over feature `q` whose row is `p`. -/
theorem lift_eq (p : Fin 4096) (q : Fin 8) :
    reduces_S4096x8_S8.lift (ix1 q) p = (ix2 p q : S4096x8.Idx) := by
  funext a
  apply Fin.ext
  match a with
  | ⟨0, _⟩ => rfl
  | ⟨1, _⟩ => rfl

/-- The reset's zero block is the extended real 0 at every feature. -/
theorem pay1_apply (q : Fin 8) : (k0_pay1 (F := Ideal)) (ix2 (0 : Fin 1) q) = 0 := by
  unfold k0_pay1
  exact Ideal.ofBits_zero_f32

theorem pay2_apply (q : Fin 8) : (k0_pay2 (F := Ideal)) (ix2 (0 : Fin 1) q) = 0 := by
  unfold k0_pay2
  exact Ideal.ofBits_zero_f32

/-- The first update at feature `q`: the old value plus the sum of that feature over the block's 4096 rows. -/
theorem pay3_apply (x : Vec Ideal S4096x8 .f32) (xo : Vec Ideal S1x8 .f32) (q : Fin 8) :
    k0_pay3 x xo (ix2 (0 : Fin 1) q) = xo (ix2 (0 : Fin 1) q) + ∑ p : Fin 4096, x (ix2 p q) := by
  unfold k0_pay3
  refine (addf_apply _ _ _).trans ?_
  refine congrArg₂ (· + ·) ?_ ?_
  · exact congrFun (shapeCast_self xo shapeCasts_S1x8_S1x8) _
  · refine (shapeCast_a_1a_apply _ shapeCasts_S8_S1x8 (0 : Fin 1) q).trans ?_
    refine (Ideal.multiReduction_add_single (φ := .f32) x 0x00000000#32 reduces_S4096x8_S8 (.inl rfl) rfl (ix1 q)).trans ?_
    exact Finset.sum_congr rfl fun p _ => congrArg x (lift_eq p q)

/-- The second update at feature `q`: the old value plus the sum of that feature's squares over the block's rows. -/
theorem pay4_apply (x : Vec Ideal S4096x8 .f32) (xo : Vec Ideal S1x8 .f32) (q : Fin 8) :
    k0_pay4 x xo (ix2 (0 : Fin 1) q) = xo (ix2 (0 : Fin 1) q) + ∑ p : Fin 4096, x (ix2 p q) * x (ix2 p q) := by
  unfold k0_pay4
  refine (addf_apply _ _ _).trans ?_
  refine congrArg₂ (· + ·) ?_ ?_
  · exact congrFun (shapeCast_self xo shapeCasts_S1x8_S1x8) _
  · refine (shapeCast_a_1a_apply _ shapeCasts_S8_S1x8 (0 : Fin 1) q).trans ?_
    refine (Ideal.multiReduction_add_single (φ := .f32) (mulf x x) 0x00000000#32 reduces_S4096x8_S8 (.inl rfl) rfl (ix1 q)).trans ?_
    refine Finset.sum_congr rfl fun p _ => ?_
    exact congrArg (fun i => x i * x i) (lift_eq p q)

end Payloads

section Blocks

variable (V : (c : Dev nD) → (b : Ref sig .tc) → Buf (Elt Ideal) ((c : Thread nD τ).loc b))

/-- The batch as the region finds it, by row and feature. -/
abbrev xin (c : Dev nD) (r : Fin 1048576) (q : Fin 8) : EReal := V c main_arg0 (ix2 r q)

/-- The input block of point `t`, at its literal type. -/
abbrev xblk (c : Dev nD) (t : Fin cfg0.N) : Vec Ideal S4096x8 .f32 := iblk0 V c 0 t

/-- The input window's block index at point `t` is `(t, 0)`: decided over the grid's 256 points. -/
theorem index0 : ∀ t : Fin cfg0.N, win0_0.index t 0 = t.val ∧ win0_0.index t 1 = 0 :=
  (by decide +kernel : ∀ t : Fin grid0.N, win0_0.index t 0 = t.val ∧ win0_0.index t 1 = 0)

/-- Row `p` of the block of point `t` is row `4096 t + p` of the batch. -/
theorem xblk_apply (c : Dev nD) (t : Fin cfg0.N) (p : Fin 4096) (q : Fin 8)
    (h : 4096 * t.val + p.val < 1048576) :
    xblk V c t (ix2 p q) = xin V c ⟨4096 * t.val + p.val, h⟩ q := by
  unfold xblk iblk0
  rw [View.read_apply]
  show V c main_arg0 _ = V c main_arg0 _
  congr 1
  funext a
  apply Fin.ext
  match a with
  | ⟨0, _⟩ => show win0_0.index t 0 * 4096 + 1 * p.val = 4096 * t.val + p.val; rw [(index0 t).1]; omega
  | ⟨1, _⟩ => show win0_0.index t 1 * 8 + 1 * q.val = q.val; rw [(index0 t).2]; omega

end Blocks

section Sums

/-- Row `r` of a batch if there is such a row, else 0: lets block sums and running sums be indexed by naturals. -/
def rowAt (X : Fin 1048576 → Fin 8 → EReal) (r : ℕ) (q : Fin 8) : EReal :=
  if h : r < 1048576 then X ⟨r, h⟩ q else 0

theorem rowAt_of_lt (X : Fin 1048576 → Fin 8 → EReal) (r : ℕ) (q : Fin 8) (h : r < 1048576) :
    rowAt X r q = X ⟨r, h⟩ q := dif_pos h

/-- The sum of feature `q` over the 4096 rows of block `t`. -/
def blockSum (X : Fin 1048576 → Fin 8 → EReal) (t : ℕ) (q : Fin 8) : EReal :=
  ∑ p ∈ Finset.range 4096, rowAt X (4096 * t + p) q

/-- The sum of feature `q` over the first `n + 1` blocks. -/
def runSum (X : Fin 1048576 → Fin 8 → EReal) (n : ℕ) (q : Fin 8) : EReal :=
  ∑ s ∈ Finset.range (n + 1), blockSum X s q

theorem runSum_zero (X : Fin 1048576 → Fin 8 → EReal) (q : Fin 8) : runSum X 0 q = blockSum X 0 q :=
  Finset.sum_range_one _

theorem runSum_succ (X : Fin 1048576 → Fin 8 → EReal) (n : ℕ) (q : Fin 8) :
    runSum X (n + 1) q = runSum X n q + blockSum X (n + 1) q :=
  Finset.sum_range_succ _ _

/-- Summing `m` consecutive blocks of `n` terms each is summing the first `n m` terms: in a commutative monoid the
    blockwise order does not matter. -/
theorem sum_blocks {M : Type} [AddCommMonoid M] (f : ℕ → M) (n : ℕ) :
    ∀ m : ℕ, ∑ s ∈ Finset.range m, ∑ p ∈ Finset.range n, f (n * s + p) = ∑ r ∈ Finset.range (n * m), f r
  | 0 => by rw [Finset.sum_range_zero, Nat.mul_zero, Finset.sum_range_zero]
  | m + 1 => by rw [Finset.sum_range_succ, sum_blocks f n m, Nat.mul_succ, Finset.sum_range_add]

/-- After the last of the 256 blocks the running sum is the sum over all 1048576 rows. -/
theorem runSum_last (X : Fin 1048576 → Fin 8 → EReal) (q : Fin 8) : runSum X 255 q = Cert.Spec.colSum X q := by
  unfold runSum blockSum Cert.Spec.colSum
  rw [show 255 + 1 = 256 from rfl, sum_blocks (fun r => rowAt X r q) 4096 256, show 4096 * 256 = 1048576 from rfl,
    Finset.sum_range]
  exact Finset.sum_congr rfl fun r _ => rowAt_of_lt X r.val q r.isLt

end Sums

section Run

variable (V : (c : Dev nD) → (b : Ref sig .tc) → Buf (Elt Ideal) ((c : Thread nD τ).loc b))

/-- The batch's squares, by row and feature. -/
abbrev xsq (c : Dev nD) (r : Fin 1048576) (q : Fin 8) : EReal := xin V c r q * xin V c r q

/-- The sum of feature `q` over the rows of the block of point `t` is the batch's block sum. -/
theorem blk_sum (c : Dev nD) (t : Fin cfg0.N) (q : Fin 8) :
    ∑ p : Fin 4096, xblk V c t (ix2 p q) = blockSum (xin V c) t.val q := by
  have hN : t.val < 256 := lt_of_lt_of_eq t.isLt (show cfg0.N = 256 from N_0)
  unfold blockSum
  rw [Finset.sum_range]
  refine Finset.sum_congr rfl fun p _ => ?_
  have h : 4096 * t.val + p.val < 1048576 := by have := p.isLt; omega
  rw [xblk_apply V c t p q h, rowAt_of_lt _ _ _ h]

/-- The same for the squares. -/
theorem blk_sumsq (c : Dev nD) (t : Fin cfg0.N) (q : Fin 8) :
    ∑ p : Fin 4096, xblk V c t (ix2 p q) * xblk V c t (ix2 p q) = blockSum (xsq V c) t.val q := by
  have hN : t.val < 256 := lt_of_lt_of_eq t.isLt (show cfg0.N = 256 from N_0)
  unfold blockSum
  rw [Finset.sum_range]
  refine Finset.sum_congr rfl fun p _ => ?_
  have h : 4096 * t.val + p.val < 1048576 := by have := p.isLt; omega
  rw [xblk_apply V c t p q h, rowAt_of_lt _ _ _ h]

/-- After the first point the two buffers hold the first block's sums: the reset's zeros plus the block. -/
theorem outsAt_first (c : Dev nD) (h : 0 < cfg0.N) (q : Fin 8) :
    (outsAt0 V c 0 h).1 (ix2 (0 : Fin 1) q) = blockSum (xin V c) 0 q
      ∧ (outsAt0 V c 0 h).2 (ix2 (0 : Fin 1) q) = blockSum (xsq V c) 0 q := by
  rw [outsAt0_A V c ⟨0, h⟩ rfl]
  dsimp only
  constructor
  · refine (congrFun (out_A_1 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (xblk V c ⟨0, h⟩)) (ix2 (0 : Fin 1) q)).trans ?_
    refine (pay3_apply (xblk V c ⟨0, h⟩) (k0_pay1 (F := Ideal)) q).trans ?_
    rw [pay1_apply, zero_add]
    exact blk_sum V c ⟨0, h⟩ q
  · refine (congrFun (out_A_2 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (xblk V c ⟨0, h⟩)) (ix2 (0 : Fin 1) q)).trans ?_
    refine (pay4_apply (xblk V c ⟨0, h⟩) (k0_pay2 (F := Ideal)) q).trans ?_
    rw [pay2_apply, zero_add]
    exact blk_sumsq V c ⟨0, h⟩ q

/-- After a later point the two buffers hold what the point before left plus that point's block sums. -/
theorem outsAt_next (c : Dev nD) (n : ℕ) (h : n + 1 < cfg0.N) (q : Fin 8) :
    (outsAt0 V c (n + 1) h).1 (ix2 (0 : Fin 1) q)
        = (outsAt0 V c n (Nat.lt_of_succ_lt h)).1 (ix2 (0 : Fin 1) q) + blockSum (xin V c) (n + 1) q
      ∧ (outsAt0 V c (n + 1) h).2 (ix2 (0 : Fin 1) q)
        = (outsAt0 V c n (Nat.lt_of_succ_lt h)).2 (ix2 (0 : Fin 1) q) + blockSum (xsq V c) (n + 1) q := by
  have hN : cfg0.N = 256 := N_0
  have hB : ¬(⟨n + 1, h⟩ : Fin cfg0.N).val % 256 = 0 := by dsimp only; omega
  rw [outsAt0_B V c ⟨n + 1, h⟩ hB]
  dsimp only
  constructor
  · refine (congrFun (out_B_1 (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh)) (xblk V c ⟨n + 1, h⟩)
      (outsAt0 V c n (Nat.lt_of_succ_lt h)).1 (outsAt0 V c n (Nat.lt_of_succ_lt h)).2) (ix2 (0 : Fin 1) q)).trans ?_
    refine (pay3_apply (xblk V c ⟨n + 1, h⟩) (outsAt0 V c n (Nat.lt_of_succ_lt h)).1 q).trans ?_
    exact congrArg (fun s => (outsAt0 V c n (Nat.lt_of_succ_lt h)).1 (ix2 (0 : Fin 1) q) + s) (blk_sum V c ⟨n + 1, h⟩ q)
  · refine (congrFun (out_B_2 (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh)) (xblk V c ⟨n + 1, h⟩)
      (outsAt0 V c n (Nat.lt_of_succ_lt h)).1 (outsAt0 V c n (Nat.lt_of_succ_lt h)).2) (ix2 (0 : Fin 1) q)).trans ?_
    refine (pay4_apply (xblk V c ⟨n + 1, h⟩) (outsAt0 V c n (Nat.lt_of_succ_lt h)).2 q).trans ?_
    exact congrArg (fun s => (outsAt0 V c n (Nat.lt_of_succ_lt h)).2 (ix2 (0 : Fin 1) q) + s) (blk_sumsq V c ⟨n + 1, h⟩ q)

/-- So after point `n` the buffers hold the sums over the first `n + 1` blocks: by induction on the point. -/
theorem outsAt_eq (c : Dev nD) : ∀ (n : ℕ) (h : n < cfg0.N) (q : Fin 8),
    (outsAt0 V c n h).1 (ix2 (0 : Fin 1) q) = runSum (xin V c) n q
      ∧ (outsAt0 V c n h).2 (ix2 (0 : Fin 1) q) = runSum (xsq V c) n q
  | 0, h, q => by
    rw [runSum_zero, runSum_zero]
    exact outsAt_first V c h q
  | n + 1, h, q => by
    have ih := outsAt_eq c n (Nat.lt_of_succ_lt h) q
    rw [runSum_succ, runSum_succ, ← ih.1, ← ih.2]
    exact outsAt_next V c n h q

end Run

section Final
variable (V : (c : Dev nD) → (b : Ref sig .tc) → Buf (Elt Ideal) ((c : Thread nD τ).loc b))

/-- The first result array's contents in closed form: at feature `q` the sum of that feature over all rows. -/
abbrev res1 (c : Dev nD) : Buf (Elt Ideal) ((c : Thread nD τ).loc main_v0_0) :=
  fun i : S1x8.Idx => Cert.Spec.colSum (xin V c) (i 1)

/-- The second result array's contents in closed form: at feature `q` the sum of that feature's squares over all rows. -/
abbrev res2 (c : Dev nD) : Buf (Elt Ideal) ((c : Thread nD τ).loc main_v0_1) :=
  fun i : S1x8.Idx => Cert.Spec.colSum (xsq V c) (i 1)

/-- The two results' block index never moves: it is `(0, 0)` at every point (decided over the grid's 256 points). -/
theorem index12 : ∀ t : Fin cfg0.N, (win0_1.index t 0 = 0 ∧ win0_1.index t 1 = 0) ∧ (win0_2.index t 0 = 0 ∧ win0_2.index t 1 = 0) :=
  (by decide +kernel : ∀ t : Fin grid0.N, (win0_1.index t 0 = 0 ∧ win0_1.index t 1 = 0) ∧ (win0_2.index t 0 = 0 ∧ win0_2.index t 1 = 0))

/-- At a point that writes the results back (the last one) the buffers hold the whole batch's sums. -/
theorem outs_last (c : Dev nD) (t : Fin cfg0.N) (h3 : t.val = 255) :
    (outsAt0 V c t.val t.isLt).1 = res1 V c ∧ (outsAt0 V c t.val t.isLt).2 = res2 V c := by
  have r1 : ∀ q : Fin 8, runSum (xin V c) t.val q = Cert.Spec.colSum (xin V c) q := fun q => by
    rw [h3]; exact runSum_last _ q
  have r2 : ∀ q : Fin 8, runSum (xsq V c) t.val q = Cert.Spec.colSum (xsq V c) q := fun q => by
    rw [h3]; exact runSum_last _ q
  constructor
  · funext i
    obtain ⟨a, b, rfl⟩ : ∃ (a : Fin 1) (b : Fin 8), i = ix2 a b := ⟨i 0, i 1, eq_ix2 i⟩
    obtain rfl : a = 0 := Subsingleton.elim _ _
    exact ((outsAt_eq V c t.val t.isLt b).1).trans (r1 b)
  · funext i
    obtain ⟨a, b, rfl⟩ : ∃ (a : Fin 1) (b : Fin 8), i = ix2 a b := ⟨i 0, i 1, eq_ix2 i⟩
    obtain rfl : a = 0 := Subsingleton.elim _ _
    exact ((outsAt_eq V c t.val t.isLt b).2).trans (r2 b)

/-- The one write-back of the first result, at the last point, writes the whole batch's sums: block (0, 0) of the 1×8
    array read through zero offsets is the array. -/
theorem flushed_eq_1 (c : Dev nD) (t : Fin cfg0.N) (hf : (cfg0.win 1).flush t = true) :
    (dat0 V c).flushed 1 t = ((cfg0.win 1).blk t).view.read (Elt Ideal) (res1 V c) := by
  have hN : cfg0.N = 256 := N_0
  have h3 : t.val = 255 := by have := (flush0_1 t).mp hf; have := t.isLt; omega
  show (cfg0.win 1).cut (grid0.coords t) ((dat0 V c).after 1 t) = _
  rw [after0_1, (outs_last V c t h3).1]
  have hz' : (fun a => win0_1.index t a * main_v0_0.ty.shape.size a) = fun _ => 0 :=
    funext fun a => by
      fin_cases a
      · show win0_1.index t 0 * _ = 0; rw [(index12 t).1.1, Nat.zero_mul]
      · show win0_1.index t 1 * _ = 0; rw [(index12 t).1.2, Nat.zero_mul]
  exact (Memref.read_access_unit_zero (Elt Ideal) main_v0_0 hz' (fun a => by rw [congrFun hz' a]; simp) (res1 V c)).symm

/-- The results' blocks are uncut: 1×8 at every point (decided over the grid's 256 points). -/
theorem xsize12 : ∀ t : Fin cfg0.N, (win0_1.xsize (grid0.coords t) 0 = 1 ∧ win0_1.xsize (grid0.coords t) 1 = 8)
      ∧ (win0_2.xsize (grid0.coords t) 0 = 1 ∧ win0_2.xsize (grid0.coords t) 1 = 8) :=
  (by decide +kernel : ∀ t : Fin grid0.N, (win0_1.xsize (grid0.coords t) 0 = 1 ∧ win0_1.xsize (grid0.coords t) 1 = 8)
      ∧ (win0_2.xsize (grid0.coords t) 0 = 1 ∧ win0_2.xsize (grid0.coords t) 1 = 8))

/-- The first result's block at any point is the whole 1×8 array. -/
theorem mem_blk_1 (c : Dev nD) (t : Fin cfg0.N) (i : ((cfg0.win 1).arr.view.loc (c.tc : Thread nD τ)).2.ty.Idx) :
    i ∈ ((cfg0.win 1).blk t).view.set := by
  show i ∈ ((View.whole main_v0_0).slice (win0_1.rect t)).set
  rw [View.set_slice_whole, Rect.mem_set_unit]
  intro a
  have h0 : (i 0 : Nat) < 1 := (i 0).isLt
  have h1 : (i 1 : Nat) < 8 := (i 1).isLt
  match a with
  | ⟨0, _⟩ =>
    show win0_1.index t 0 * win0_1.size 0 ≤ (i 0 : Nat)
      ∧ (i 0 : Nat) < win0_1.index t 0 * win0_1.size 0 + win0_1.xsize (grid0.coords t) 0
    rw [(index12 t).1.1, (xsize12 t).1.1]
    omega
  | ⟨1, _⟩ =>
    show win0_1.index t 1 * win0_1.size 1 ≤ (i 1 : Nat)
      ∧ (i 1 : Nat) < win0_1.index t 1 * win0_1.size 1 + win0_1.xsize (grid0.coords t) 1
    rw [(index12 t).1.2, (xsize12 t).1.2]
    omega

/-- The last point of the grid, after which the two results are written back. -/
abbrev tlast : Fin cfg0.N := ⟨255, lt_of_lt_of_eq (by decide : 255 < 256) (show cfg0.N = 256 from N_0).symm⟩

/-- So the first result array ends holding the whole batch's sums: the last point writes them, and its block is the array. -/
theorem final_1 (c : Dev nD) : (dat0 V c).arrAt 1 cfg0.N = res1 V c :=
  (dat0 V c).arrAt_eq_of_cover 1 (res1 V c) (flushed_eq_1 V c) fun i =>
    ⟨tlast, (flush0_1 tlast).mpr rfl, mem_blk_1 c tlast i⟩

/-- The one write-back of the second result, at the last point, writes the whole batch's sums of squares. -/
theorem flushed_eq_2 (c : Dev nD) (t : Fin cfg0.N) (hf : (cfg0.win 2).flush t = true) :
    (dat0 V c).flushed 2 t = ((cfg0.win 2).blk t).view.read (Elt Ideal) (res2 V c) := by
  have hN : cfg0.N = 256 := N_0
  have h3 : t.val = 255 := by have := (flush0_2 t).mp hf; have := t.isLt; omega
  show (cfg0.win 2).cut (grid0.coords t) ((dat0 V c).after 2 t) = _
  rw [after0_2, (outs_last V c t h3).2]
  have hz' : (fun a => win0_2.index t a * main_v0_1.ty.shape.size a) = fun _ => 0 :=
    funext fun a => by
      fin_cases a
      · show win0_2.index t 0 * _ = 0; rw [(index12 t).2.1, Nat.zero_mul]
      · show win0_2.index t 1 * _ = 0; rw [(index12 t).2.2, Nat.zero_mul]
  exact (Memref.read_access_unit_zero (Elt Ideal) main_v0_1 hz' (fun a => by rw [congrFun hz' a]; simp) (res2 V c)).symm

/-- The second result's block at any point is the whole 1×8 array. -/
theorem mem_blk_2 (c : Dev nD) (t : Fin cfg0.N) (i : ((cfg0.win 2).arr.view.loc (c.tc : Thread nD τ)).2.ty.Idx) :
    i ∈ ((cfg0.win 2).blk t).view.set := by
  show i ∈ ((View.whole main_v0_1).slice (win0_2.rect t)).set
  rw [View.set_slice_whole, Rect.mem_set_unit]
  intro a
  have h0 : (i 0 : Nat) < 1 := (i 0).isLt
  have h1 : (i 1 : Nat) < 8 := (i 1).isLt
  match a with
  | ⟨0, _⟩ =>
    show win0_2.index t 0 * win0_2.size 0 ≤ (i 0 : Nat)
      ∧ (i 0 : Nat) < win0_2.index t 0 * win0_2.size 0 + win0_2.xsize (grid0.coords t) 0
    rw [(index12 t).2.1, (xsize12 t).2.1]
    omega
  | ⟨1, _⟩ =>
    show win0_2.index t 1 * win0_2.size 1 ≤ (i 1 : Nat)
      ∧ (i 1 : Nat) < win0_2.index t 1 * win0_2.size 1 + win0_2.xsize (grid0.coords t) 1
    rw [(index12 t).2.2, (xsize12 t).2.2]
    omega

/-- So the second result array ends holding the whole batch's sums of squares. -/
theorem final_2 (c : Dev nD) : (dat0 V c).arrAt 2 cfg0.N = res2 V c :=
  (dat0 V c).arrAt_eq_of_cover 2 (res2 V c) (flushed_eq_2 V c) fun i =>
    ⟨tlast, (flush0_2 tlast).mpr rfl, mem_blk_2 c tlast i⟩

/-- After the region, its first result array holds, at feature `q`, the sum of that feature over all rows. -/
theorem final_sum (c : Dev nD) (q : Fin 8) :
    (dat0 (F := Ideal) V c).arrAt 1 cfg0.N (ix2 (0 : Fin 1) q) = Cert.Spec.colSum (xin V c) q :=
  congrFun (final_1 V c) (ix2 (0 : Fin 1) q)

/-- After the region, its second result array holds, at feature `q`, the sum of that feature's squares over all rows. -/
theorem final_sumsq (c : Dev nD) (q : Fin 8) :
    (dat0 (F := Ideal) V c).arrAt 2 cfg0.N (ix2 (0 : Fin 1) q)
      = Cert.Spec.colSum (fun r q' => xin V c r q' * xin V c r q') q :=
  congrFun (final_2 V c) (ix2 (0 : Fin 1) q)

end Final

end Cert.KernelIdeal.Stats

end
-- ==== Proof.Mid.lean ====
/-
  Between the two kernel regions: what the second region is entered with, in terms of the launch memory.

  After the first region its two result arrays hold the column sums of the batch and of its squares. The host then
  divides each by the batch size (the mean, and the mean of the squares), subtracts the square of the mean from the
  mean of the squares (the variance in the first of the two arrangements), and re-lays each length-n vector among
  the arguments as a 1×n array. No host operation and neither region writes an argument, so the arguments reach the
  second region as launched. Hence the network on row r of the arrays the second region finds is the network on row r
  of the batch with the batch's mean, that variance, and the parameters as launched.
-/
import proofs.«148413_j65481071403406_1_alg».proof.Proof.Gen.KernelIdeal.Frame
import proofs.«148413_j65481071403406_1_alg».proof.Proof.Spec
import proofs.«148413_j65481071403406_1_alg».proof.Proof.Stats
import proofs.«148413_j65481071403406_1_alg».proof.Proof.KValue
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Mid

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The batch as launched, by row and feature. -/
abbrev X (c : Dev nD) (r : Fin 1048576) (q : Fin 8) : EReal := m ((c : Thread nD τ).loc main_arg0) (ix2 r q)

/-- The batch size as the host spells it: one scalar word, broadcast over the 1×8 statistics. -/
abbrev rowsVec : FVec Ideal S1x8 .f32 := broadcastInDim S1x8 ![] bcast_S_S1x8 (constant (F := Ideal) S_ .f32 0x49800000#32)

theorem rowsVec_apply (q : Fin 8) : rowsVec (ix2 (0 : Fin 1) q) = Cert.Spec.rows :=
  broadcastInDim_apply _ bcast_S_S1x8 _ (ix2 (0 : Fin 1) q) ix0 (fun a => a.elim0)

/-! ## The first region's results -/

/-- After the first region its first result holds the column sums of the batch. -/
theorem sum_at (c : Dev nD) (q : Fin 8) :
    W1 m ρ c (Proc.devRef .tc main_v0_0) (ix2 (0 : Fin 1) q) = Cert.Spec.colSum (X m c) q :=
  (congrFun (W1_arr m ρ c 1) (ix2 (0 : Fin 1) q)).trans (Cert.KernelIdeal.Stats.final_sum (V0 m ρ) c q)

/-- After the first region its second result holds the column sums of the squares. -/
theorem sumsq_at (c : Dev nD) (q : Fin 8) :
    W1 m ρ c (Proc.devRef .tc main_v0_1) (ix2 (0 : Fin 1) q) = Cert.Spec.colSum (fun r q' => X m c r q' * X m c r q') q :=
  (congrFun (W1_arr m ρ c 2) (ix2 (0 : Fin 1) q)).trans (Cert.KernelIdeal.Stats.final_sumsq (V0 m ρ) c q)

/-! ## The host's two statistics -/

/-- The mean the second region is entered with. -/
theorem mean_at (c : Dev nD) (q : Fin 8) : V2 m ρ c main_v2 (ix2 (0 : Fin 1) q) = Cert.Spec.mean (X m c) q := by
  have e : (V2 m ρ c main_v2 : FVec Ideal S1x8 .f32)
      = Host.divf (W1 m ρ c (Proc.devRef .tc main_v0_0) : FVec Ideal S1x8 .f32) rowsVec := by
    show StableHlo.after hostOps1 (W1 m ρ c) (Proc.devRef .tc main_v2) = _
    after_results <;> rfl
  rw [e]
  show Ideal.div (W1 m ρ c (Proc.devRef .tc main_v0_0) (ix2 (0 : Fin 1) q)) (rowsVec (ix2 (0 : Fin 1) q)) = _
  rw [sum_at, rowsVec_apply]
  rfl

/-- The variance the second region is entered with: the mean of the squares minus the square of the mean. -/
theorem var_at (c : Dev nD) (q : Fin 8) : V2 m ρ c main_v6 (ix2 (0 : Fin 1) q) = Cert.Spec.varOfSquares (X m c) q := by
  have e : (V2 m ρ c main_v6 : FVec Ideal S1x8 .f32)
      = subf (Host.divf (W1 m ρ c (Proc.devRef .tc main_v0_1) : FVec Ideal S1x8 .f32) rowsVec)
          (mulf (Host.divf (W1 m ρ c (Proc.devRef .tc main_v0_0) : FVec Ideal S1x8 .f32) rowsVec)
            (Host.divf (W1 m ρ c (Proc.devRef .tc main_v0_0) : FVec Ideal S1x8 .f32) rowsVec)) := by
    show StableHlo.after hostOps1 (W1 m ρ c) (Proc.devRef .tc main_v6) = _
    after_results <;> rfl
  rw [e]
  show Ideal.div (W1 m ρ c (Proc.devRef .tc main_v0_1) (ix2 (0 : Fin 1) q)) (rowsVec (ix2 (0 : Fin 1) q))
      - Ideal.div (W1 m ρ c (Proc.devRef .tc main_v0_0) (ix2 (0 : Fin 1) q)) (rowsVec (ix2 (0 : Fin 1) q))
        * Ideal.div (W1 m ρ c (Proc.devRef .tc main_v0_0) (ix2 (0 : Fin 1) q)) (rowsVec (ix2 (0 : Fin 1) q)) = _
  rw [sumsq_at, sum_at, rowsVec_apply]
  rfl

/-! ## The vectors re-laid as one-row arrays -/

theorem at_v7 (c : Dev nD) (q : Fin 8) : V2 m ρ c main_v7 (ix2 (0 : Fin 1) q) = m ((c : Thread nD τ).loc main_arg1) (ix1 q) := by
  have e : V2 m ρ c main_v7 = shapeCast S1x8 (W1 m ρ c (Proc.devRef .tc main_arg1)) shapeCasts_S8_S1x8 := by
    show StableHlo.after hostOps1 (W1 m ρ c) (Proc.devRef .tc main_v7) = _
    after_results <;> rfl
  rw [e]
  exact (shapeCast_a_1a_apply _ shapeCasts_S8_S1x8 0 q).trans (congrFun (W1_of_ne m ρ c main_arg1 (by decide)) (ix1 q))

theorem at_v8 (c : Dev nD) (q : Fin 8) : V2 m ρ c main_v8 (ix2 (0 : Fin 1) q) = m ((c : Thread nD τ).loc main_arg2) (ix1 q) := by
  have e : V2 m ρ c main_v8 = shapeCast S1x8 (W1 m ρ c (Proc.devRef .tc main_arg2)) shapeCasts_S8_S1x8 := by
    show StableHlo.after hostOps1 (W1 m ρ c) (Proc.devRef .tc main_v8) = _
    after_results <;> rfl
  rw [e]
  exact (shapeCast_a_1a_apply _ shapeCasts_S8_S1x8 0 q).trans (congrFun (W1_of_ne m ρ c main_arg2 (by decide)) (ix1 q))

theorem at_v9 (c : Dev nD) (q : Fin 16) : V2 m ρ c main_v9 (ix2 (0 : Fin 1) q) = m ((c : Thread nD τ).loc main_arg4) (ix1 q) := by
  have e : V2 m ρ c main_v9 = shapeCast S1x16 (W1 m ρ c (Proc.devRef .tc main_arg4)) shapeCasts_S16_S1x16 := by
    show StableHlo.after hostOps1 (W1 m ρ c) (Proc.devRef .tc main_v9) = _
    after_results <;> rfl
  rw [e]
  exact (shapeCast_a_1a_apply _ shapeCasts_S16_S1x16 0 q).trans (congrFun (W1_of_ne m ρ c main_arg4 (by decide)) (ix1 q))

theorem at_v10 (c : Dev nD) (q : Fin 16) : V2 m ρ c main_v10 (ix2 (0 : Fin 1) q) = m ((c : Thread nD τ).loc main_arg6) (ix1 q) := by
  have e : V2 m ρ c main_v10 = shapeCast S1x16 (W1 m ρ c (Proc.devRef .tc main_arg6)) shapeCasts_S16_S1x16 := by
    show StableHlo.after hostOps1 (W1 m ρ c) (Proc.devRef .tc main_v10) = _
    after_results <;> rfl
  rw [e]
  exact (shapeCast_a_1a_apply _ shapeCasts_S16_S1x16 0 q).trans (congrFun (W1_of_ne m ρ c main_arg6 (by decide)) (ix1 q))

theorem at_v11 (c : Dev nD) (q : Fin 12) : V2 m ρ c main_v11 (ix2 (0 : Fin 1) q) = m ((c : Thread nD τ).loc main_arg8) (ix1 q) := by
  have e : V2 m ρ c main_v11 = shapeCast S1x12 (W1 m ρ c (Proc.devRef .tc main_arg8)) shapeCasts_S12_S1x12 := by
    show StableHlo.after hostOps1 (W1 m ρ c) (Proc.devRef .tc main_v11) = _
    after_results <;> rfl
  rw [e]
  exact (shapeCast_a_1a_apply _ shapeCasts_S12_S1x12 0 q).trans (congrFun (W1_of_ne m ρ c main_arg8 (by decide)) (ix1 q))

theorem at_v12 (c : Dev nD) (q : Fin 8) : V2 m ρ c main_v12 (ix2 (0 : Fin 1) q) = m ((c : Thread nD τ).loc main_arg10) (ix1 q) := by
  have e : V2 m ρ c main_v12 = shapeCast S1x8 (W1 m ρ c (Proc.devRef .tc main_arg10)) shapeCasts_S8_S1x8 := by
    show StableHlo.after hostOps1 (W1 m ρ c) (Proc.devRef .tc main_v12) = _
    after_results <;> rfl
  rw [e]
  exact (shapeCast_a_1a_apply _ shapeCasts_S8_S1x8 0 q).trans (congrFun (W1_of_ne m ρ c main_arg10 (by decide)) (ix1 q))

theorem at_v13 (c : Dev nD) (q : Fin 4) : V2 m ρ c main_v13 (ix2 (0 : Fin 1) q) = m ((c : Thread nD τ).loc main_arg12) (ix1 q) := by
  have e : V2 m ρ c main_v13 = shapeCast S1x4 (W1 m ρ c (Proc.devRef .tc main_arg12)) shapeCasts_S4_S1x4 := by
    show StableHlo.after hostOps1 (W1 m ρ c) (Proc.devRef .tc main_v13) = _
    after_results <;> rfl
  rw [e]
  exact (shapeCast_a_1a_apply _ shapeCasts_S4_S1x4 0 q).trans (congrFun (W1_of_ne m ρ c main_arg12 (by decide)) (ix1 q))

theorem at_v14 (c : Dev nD) (q : Fin 4) : V2 m ρ c main_v14 (ix2 (0 : Fin 1) q) = m ((c : Thread nD τ).loc main_arg14) (ix1 q) := by
  have e : V2 m ρ c main_v14 = shapeCast S1x4 (W1 m ρ c (Proc.devRef .tc main_arg14)) shapeCasts_S4_S1x4 := by
    show StableHlo.after hostOps1 (W1 m ρ c) (Proc.devRef .tc main_v14) = _
    after_results <;> rfl
  rw [e]
  exact (shapeCast_a_1a_apply _ shapeCasts_S4_S1x4 0 q).trans (congrFun (W1_of_ne m ρ c main_arg14 (by decide)) (ix1 q))

theorem at_v15 (c : Dev nD) (q : Fin 4) : V2 m ρ c main_v15 (ix2 (0 : Fin 1) q) = m ((c : Thread nD τ).loc main_arg16) (ix1 q) := by
  have e : V2 m ρ c main_v15 = shapeCast S1x4 (W1 m ρ c (Proc.devRef .tc main_arg16)) shapeCasts_S4_S1x4 := by
    show StableHlo.after hostOps1 (W1 m ρ c) (Proc.devRef .tc main_v15) = _
    after_results <;> rfl
  rw [e]
  exact (shapeCast_a_1a_apply _ shapeCasts_S4_S1x4 0 q).trans (congrFun (W1_of_ne m ρ c main_arg16 (by decide)) (ix1 q))

theorem at_v16 (c : Dev nD) (q : Fin 1) : V2 m ρ c main_v16 (ix2 (0 : Fin 1) q) = m ((c : Thread nD τ).loc main_arg18) (ix1 q) := by
  have e : V2 m ρ c main_v16 = shapeCast S1x1 (W1 m ρ c (Proc.devRef .tc main_arg18)) shapeCasts_S1_S1x1 := by
    show StableHlo.after hostOps1 (W1 m ρ c) (Proc.devRef .tc main_v16) = _
    after_results <;> rfl
  rw [e]
  exact (shapeCast_a_1a_apply _ shapeCasts_S1_S1x1 0 q).trans (congrFun (W1_of_ne m ρ c main_arg18 (by decide)) (ix1 q))

/-! ## The arguments the second region reads directly: as launched -/

theorem at_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)
theorem at_arg3 (c : Dev nD) : V2 m ρ c main_arg3 = m ((c : Thread nD τ).loc main_arg3) :=
  ((W3_arr m ρ c 5).trans (((dat1 (V2 m ρ) c).arrAt_in 5 rfl _).trans (A_eq1 (V2 m ρ) c 5))).symm.trans (W3_main_arg3 m ρ c)
theorem at_arg5 (c : Dev nD) : V2 m ρ c main_arg5 = m ((c : Thread nD τ).loc main_arg5) :=
  ((W3_arr m ρ c 7).trans (((dat1 (V2 m ρ) c).arrAt_in 7 rfl _).trans (A_eq1 (V2 m ρ) c 7))).symm.trans (W3_main_arg5 m ρ c)
theorem at_arg7 (c : Dev nD) : V2 m ρ c main_arg7 = m ((c : Thread nD τ).loc main_arg7) :=
  ((W3_arr m ρ c 9).trans (((dat1 (V2 m ρ) c).arrAt_in 9 rfl _).trans (A_eq1 (V2 m ρ) c 9))).symm.trans (W3_main_arg7 m ρ c)
theorem at_arg9 (c : Dev nD) : V2 m ρ c main_arg9 = m ((c : Thread nD τ).loc main_arg9) :=
  ((W3_arr m ρ c 11).trans (((dat1 (V2 m ρ) c).arrAt_in 11 rfl _).trans (A_eq1 (V2 m ρ) c 11))).symm.trans (W3_main_arg9 m ρ c)
theorem at_arg11 (c : Dev nD) : V2 m ρ c main_arg11 = m ((c : Thread nD τ).loc main_arg11) :=
  ((W3_arr m ρ c 13).trans (((dat1 (V2 m ρ) c).arrAt_in 13 rfl _).trans (A_eq1 (V2 m ρ) c 13))).symm.trans (W3_main_arg11 m ρ c)
theorem at_arg13 (c : Dev nD) : V2 m ρ c main_arg13 = m ((c : Thread nD τ).loc main_arg13) :=
  ((W3_arr m ρ c 15).trans (((dat1 (V2 m ρ) c).arrAt_in 15 rfl _).trans (A_eq1 (V2 m ρ) c 15))).symm.trans (W3_main_arg13 m ρ c)
theorem at_arg15 (c : Dev nD) : V2 m ρ c main_arg15 = m ((c : Thread nD τ).loc main_arg15) :=
  ((W3_arr m ρ c 17).trans (((dat1 (V2 m ρ) c).arrAt_in 17 rfl _).trans (A_eq1 (V2 m ρ) c 17))).symm.trans (W3_main_arg15 m ρ c)
theorem at_arg17 (c : Dev nD) : V2 m ρ c main_arg17 = m ((c : Thread nD τ).loc main_arg17) :=
  ((W3_arr m ρ c 19).trans (((dat1 (V2 m ρ) c).arrAt_in 19 rfl _).trans (A_eq1 (V2 m ρ) c 19))).symm.trans (W3_main_arg17 m ρ c)

/-! ## The network on a row, over the launch memory -/

/-- The network on row `r` of what the second region finds is the network on row `r` of the batch as launched, with
    the batch's mean, the variance as mean of squares minus squared mean, and the parameters as launched. -/
theorem rowNet_entry (c : Dev nD) (r : Fin 1048576) :
    Cert.KernelIdeal.KValue.rowNet (V2 m ρ) c r
      = Cert.Spec.net (X m c r) (Cert.Spec.mean (X m c)) (Cert.Spec.varOfSquares (X m c))
          (fun q => m ((c : Thread nD τ).loc main_arg1) (ix1 q)) (fun q => m ((c : Thread nD τ).loc main_arg2) (ix1 q))
          (fun a j => m ((c : Thread nD τ).loc main_arg3) (ix2 a j)) (fun j => m ((c : Thread nD τ).loc main_arg4) (ix1 j))
          (fun a j => m ((c : Thread nD τ).loc main_arg5) (ix2 a j)) (fun j => m ((c : Thread nD τ).loc main_arg6) (ix1 j))
          (fun a j => m ((c : Thread nD τ).loc main_arg7) (ix2 a j)) (fun j => m ((c : Thread nD τ).loc main_arg8) (ix1 j))
          (fun a j => m ((c : Thread nD τ).loc main_arg9) (ix2 a j)) (fun j => m ((c : Thread nD τ).loc main_arg10) (ix1 j))
          (fun a j => m ((c : Thread nD τ).loc main_arg11) (ix2 a j)) (fun j => m ((c : Thread nD τ).loc main_arg12) (ix1 j))
          (fun a j => m ((c : Thread nD τ).loc main_arg13) (ix2 a j)) (fun j => m ((c : Thread nD τ).loc main_arg14) (ix1 j))
          (fun a j => m ((c : Thread nD τ).loc main_arg15) (ix2 a j)) (fun j => m ((c : Thread nD τ).loc main_arg16) (ix1 j))
          (fun a j => m ((c : Thread nD τ).loc main_arg17) (ix2 a j)) (fun j => m ((c : Thread nD τ).loc main_arg18) (ix1 j)) := by
  unfold Cert.KernelIdeal.KValue.rowNet
  simp only [at_arg0 m ρ c, at_arg3 m ρ c, at_arg5 m ρ c, at_arg7 m ρ c, at_arg9 m ρ c, at_arg11 m ρ c, at_arg13 m ρ c,
    at_arg15 m ρ c, at_arg17 m ρ c, mean_at m ρ c, var_at m ρ c, at_v7 m ρ c, at_v8 m ρ c, at_v9 m ρ c, at_v10 m ρ c,
    at_v11 m ρ c, at_v12 m ρ c, at_v13 m ρ c, at_v14 m ρ c, at_v15 m ρ c, at_v16 m ρ c]

end Cert.KernelIdeal.Mid

end
-- ==== Proof.RefRow.lean ====
/-
  The reference program, read at one row.

  The reference normalises the whole batch at once (the mean per feature, then the mean of the squared deviations),
  and then applies each layer to the whole batch: a matrix product with the weights, the bias broadcast down the
  rows, the activation. Read at row r, each of these stages depends on row r of the stage before only (and on the
  two per-feature statistics), so the result at row r is the network applied to row r of the batch: `Spec.net`, with
  the mean and the variance of deviations as its statistics. The logistic at the end is spelt out as
  1 / (1 + exp (−z)), which is what the logistic function is on the extended reals.
-/
import proofs.«148413_j65481071403406_1_alg».proof.Proof.Gen.ReferenceIdeal.Read
import proofs.«148413_j65481071403406_1_alg».proof.Proof.Spec
import proofs.«148413_j65481071403406_1_alg».proof.Proof.LibDot2
import Idealize.ShloMosaic.Lib.Pipeline.Value
import Idealize.ShloMosaic.Lib.ValueIdx
import Idealize.ShloMosaic.PureOps.Ideal.Laws

noncomputable section

namespace Cert.ReferenceIdeal.Row

open Cert.ReferenceIdeal Idealize.ShloMosaic Idealize.ShloMosaic.ValueIdx

/-! ## The batch statistics and the normalised row -/

section Stats

variable (x0 : (⟨S1048576x8, .f32⟩ : BufTy).Contents (Elt Ideal)) (x1 x2 : (⟨S8, .f32⟩ : BufTy).Contents (Elt Ideal))

/-- The first reduction over the rows reads column `q` of the batch. -/
theorem idx_v0 (q : Fin 8) (k : Fin 1048576) : Read.idx_main_v0 (ix1 q) k = ix2 k q :=
  funext fun a => Fin.ext (by match a with | ⟨0, _⟩ => rfl | ⟨1, _⟩ => rfl)

/-- The second reduction over the rows reads column `q` of the squared deviations. -/
theorem idx_v7 (q : Fin 8) (k : Fin 1048576) : Read.idx_main_v7 (ix1 q) k = ix2 k q :=
  funext fun a => Fin.ext (by match a with | ⟨0, _⟩ => rfl | ⟨1, _⟩ => rfl)

/-- The first division: the column sum over the batch size is the mean. -/
theorem mean_at (q : Fin 8) :
    Read.val_main_v2 (F := Ideal) x0 (ix1 q) = Cert.Spec.mean (fun r' q => x0 (ix2 r' q)) q := by
  rw [Read.val_main_v2_apply, Read.val_main_v0_apply, Read.val_main_v1_apply, Read.val_main_cst_0_apply,
    Read.val_main_cst_apply, Ideal.hostDivf_def, Ideal.ofBits_def, Ideal.ofBits_def, Ideal.ofBits_zero_f32, zero_add]
  unfold Cert.Spec.mean Cert.Spec.colSum Cert.Spec.rows
  simp only [idx_v0]

/-- The mean broadcast down the rows (its first use, for the deviations that are squared). -/
theorem v4_at (r : Fin 1048576) (q : Fin 8) :
    Read.val_main_v4 (F := Ideal) x0 (ix2 r q) = Cert.Spec.mean (fun r' q => x0 (ix2 r' q)) q := by
  rw [Read.val_main_v4_apply, Read.val_main_v3_apply,
    show Read.idx_main_v3 (Read.idx_main_v4 (ix2 r q)) = ix1 q from funext fun a => Fin.ext (by match a with | ⟨0, _⟩ => rfl), mean_at]

/-- The mean broadcast down the rows (its second use, for the deviations that are normalised). -/
theorem v11_at (r : Fin 1048576) (q : Fin 8) :
    Read.val_main_v11 (F := Ideal) x0 (ix2 r q) = Cert.Spec.mean (fun r' q => x0 (ix2 r' q)) q := by
  rw [Read.val_main_v11_apply, Read.val_main_v10_apply,
    show Read.idx_main_v10 (Read.idx_main_v11 (ix2 r q)) = ix1 q from funext fun a => Fin.ext (by match a with | ⟨0, _⟩ => rfl), mean_at]

/-- The squared deviation of one entry from its column's mean. -/
theorem sq_at (r : Fin 1048576) (q : Fin 8) :
    Read.val_main_v6 (F := Ideal) x0 (ix2 r q)
      = (x0 (ix2 r q) - Cert.Spec.mean (fun r' q => x0 (ix2 r' q)) q) * (x0 (ix2 r q) - Cert.Spec.mean (fun r' q => x0 (ix2 r' q)) q) := by
  rw [Read.val_main_v6_apply, Read.val_main_v5_apply, Ideal.mulf_def, Ideal.subf_def, v4_at]

/-- The second division: the column sum of the squared deviations over the batch size is the variance. -/
theorem var_at (q : Fin 8) :
    Read.val_main_v9 (F := Ideal) x0 (ix1 q) = Cert.Spec.varOfDeviations (fun r' q => x0 (ix2 r' q)) q := by
  rw [Read.val_main_v9_apply, Read.val_main_v7_apply, Read.val_main_v8_apply, Read.val_main_cst_2_apply,
    Read.val_main_cst_1_apply, Ideal.hostDivf_def, Ideal.ofBits_def, Ideal.ofBits_def, Ideal.ofBits_zero_f32, zero_add]
  unfold Cert.Spec.varOfDeviations Cert.Spec.colSum Cert.Spec.rows
  simp only [idx_v7, sq_at]

/-- The inverse square root of the stabilised variance, broadcast down the rows. -/
theorem v17_at (r : Fin 1048576) (q : Fin 8) :
    Read.val_main_v17 (F := Ideal) x0 (ix2 r q)
      = Ideal.rsqrt (Cert.Spec.varOfDeviations (fun r' q => x0 (ix2 r' q)) q + Cert.Spec.eps) := by
  rw [Read.val_main_v17_apply, Read.val_main_v16_apply,
    show Read.idx_main_v16 (Read.idx_main_v17 (ix2 r q)) = ix1 q from funext fun a => Fin.ext (by match a with | ⟨0, _⟩ => rfl),
    Read.val_main_v15_apply, Read.val_main_v14_apply, Read.val_main_v13_apply, Read.val_main_cst_3_apply,
    Ideal.hostUnary_rsqrt_def, Ideal.addf_def, Ideal.ofBits_def, var_at]
  rfl

/-- The learned scale, broadcast down the rows. -/
theorem v20_at (r : Fin 1048576) (q : Fin 8) : Read.val_main_v20 (F := Ideal) x1 (ix2 r q) = x1 (ix1 q) := by
  rw [Read.val_main_v20_apply, Read.val_main_v19_apply]
  exact congrArg x1 (funext fun a => Fin.ext (by match a with | ⟨0, _⟩ => rfl))

/-- The learned shift, broadcast down the rows. -/
theorem v23_at (r : Fin 1048576) (q : Fin 8) : Read.val_main_v23 (F := Ideal) x2 (ix2 r q) = x2 (ix1 q) := by
  rw [Read.val_main_v23_apply, Read.val_main_v22_apply]
  exact congrArg x2 (funext fun a => Fin.ext (by match a with | ⟨0, _⟩ => rfl))

/-- Row `r` after the normalisation is the normalised row of the specification. -/
theorem row_v24 (r : Fin 1048576) :
    (fun q => Read.val_main_v24 (F := Ideal) x0 x1 x2 (ix2 r q) : Fin 8 → EReal)
      = Cert.Spec.normed (fun q => x0 (ix2 r q)) (Cert.Spec.mean fun r' q => x0 (ix2 r' q))
          (Cert.Spec.varOfDeviations fun r' q => x0 (ix2 r' q)) (fun q => x1 (ix1 q)) (fun q => x2 (ix1 q)) := by
  funext q
  rw [Read.val_main_v24_apply, Read.val_main_v21_apply, Read.val_main_v18_apply, Read.val_main_v12_apply,
    Ideal.addf_def, Ideal.mulf_def, Ideal.mulf_def, Ideal.subf_def, v11_at, v17_at, v20_at, v23_at]
  rfl

end Stats

/-! ## The dense layers, one row at a time -/

section Layers

variable (x0 : (⟨S1048576x8, .f32⟩ : BufTy).Contents (Elt Ideal)) (x1 : (⟨S8, .f32⟩ : BufTy).Contents (Elt Ideal)) (x2 : (⟨S8, .f32⟩ : BufTy).Contents (Elt Ideal)) (x3 : (⟨S8x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x12, .f32⟩ : BufTy).Contents (Elt Ideal)) (x8 : (⟨S12, .f32⟩ : BufTy).Contents (Elt Ideal)) (x9 : (⟨S12x8, .f32⟩ : BufTy).Contents (Elt Ideal)) (x10 : (⟨S8, .f32⟩ : BufTy).Contents (Elt Ideal)) (x11 : (⟨S8x4, .f32⟩ : BufTy).Contents (Elt Ideal)) (x12 : (⟨S4, .f32⟩ : BufTy).Contents (Elt Ideal)) (x13 : (⟨S4x4, .f32⟩ : BufTy).Contents (Elt Ideal)) (x14 : (⟨S4, .f32⟩ : BufTy).Contents (Elt Ideal)) (x15 : (⟨S4x4, .f32⟩ : BufTy).Contents (Elt Ideal)) (x16 : (⟨S4, .f32⟩ : BufTy).Contents (Elt Ideal)) (x17 : (⟨S4x1, .f32⟩ : BufTy).Contents (Elt Ideal)) (x18 : (⟨S1, .f32⟩ : BufTy).Contents (Elt Ideal))

/-- The bias of the first layer, broadcast down the rows. -/
theorem bias_1 (r : Fin 1048576) (j : Fin 16) :
    Read.val_main_v27 (F := Ideal) x4 (ix2 r j) = x4 (ix1 j) := by
  rw [Read.val_main_v27_apply, Read.val_main_v26_apply]
  exact congrArg x4 (funext fun a => Fin.ext (by match a with | ⟨0, _⟩ => rfl))

/-- The matrix product of the first layer read at row `r`: the inner product of row `r` of the stage before with a column of
    the weights. -/
theorem dot_1 (r : Fin 1048576) (j : Fin 16) :
    Read.val_main_v25 (F := Ideal) x0 x1 x2 x3 (ix2 r j)
      = ∑ k : Fin 8, Read.val_main_v24 (F := Ideal) x0 x1 x2 (ix2 r k) * x3 (ix2 k j) := by
  rw [Read.val_main_v25_apply]
  refine Finset.sum_congr rfl fun k _ => ?_
  rw [show Read.lidx_main_v25 (ix2 r j) k = ix2 r k from funext fun a => Fin.ext (by match a with | ⟨0, _⟩ => rfl | ⟨1, _⟩ => rfl),
    show Read.ridx_main_v25 (ix2 r j) k = ix2 k j from funext fun a => Fin.ext (by match a with | ⟨0, _⟩ => rfl | ⟨1, _⟩ => rfl)]

/-- Row `r` after the first layer is that layer applied to row `r` of the stage before. -/
theorem row_v29 (r : Fin 1048576) (h : Fin 8 → EReal)
    (hprev : (fun k => Read.val_main_v24 (F := Ideal) x0 x1 x2 (ix2 r k) : Fin 8 → EReal) = h) :
    (fun j => Read.val_main_v29 (F := Ideal) x0 x1 x2 x3 x4 (ix2 r j) : Fin 16 → EReal)
      = Cert.Spec.tanhLayer h (fun a j => x3 (ix2 a j)) (fun j => x4 (ix1 j)) := by
  subst hprev
  funext j
  rw [Read.val_main_v29_apply, Read.val_main_v28_apply, Ideal.hostUnary_tanh_def, Ideal.addf_def, dot_1, bias_1]
  rfl

/-- The bias of the second layer, broadcast down the rows. -/
theorem bias_2 (r : Fin 1048576) (j : Fin 16) :
    Read.val_main_v32 (F := Ideal) x6 (ix2 r j) = x6 (ix1 j) := by
  rw [Read.val_main_v32_apply, Read.val_main_v31_apply]
  exact congrArg x6 (funext fun a => Fin.ext (by match a with | ⟨0, _⟩ => rfl))

/-- The matrix product of the second layer read at row `r`: the inner product of row `r` of the stage before with a column of
    the weights. -/
theorem dot_2 (r : Fin 1048576) (j : Fin 16) :
    Read.val_main_v30 (F := Ideal) x0 x1 x2 x3 x4 x5 (ix2 r j)
      = ∑ k : Fin 16, Read.val_main_v29 (F := Ideal) x0 x1 x2 x3 x4 (ix2 r k) * x5 (ix2 k j) := by
  rw [Read.val_main_v30_apply]
  refine Finset.sum_congr rfl fun k _ => ?_
  rw [show Read.lidx_main_v30 (ix2 r j) k = ix2 r k from funext fun a => Fin.ext (by match a with | ⟨0, _⟩ => rfl | ⟨1, _⟩ => rfl),
    show Read.ridx_main_v30 (ix2 r j) k = ix2 k j from funext fun a => Fin.ext (by match a with | ⟨0, _⟩ => rfl | ⟨1, _⟩ => rfl)]

/-- Row `r` after the second layer is that layer applied to row `r` of the stage before. -/
theorem row_v34 (r : Fin 1048576) (h : Fin 16 → EReal)
    (hprev : (fun k => Read.val_main_v29 (F := Ideal) x0 x1 x2 x3 x4 (ix2 r k) : Fin 16 → EReal) = h) :
    (fun j => Read.val_main_v34 (F := Ideal) x0 x1 x2 x3 x4 x5 x6 (ix2 r j) : Fin 16 → EReal)
      = Cert.Spec.tanhLayer h (fun a j => x5 (ix2 a j)) (fun j => x6 (ix1 j)) := by
  subst hprev
  funext j
  rw [Read.val_main_v34_apply, Read.val_main_v33_apply, Ideal.hostUnary_tanh_def, Ideal.addf_def, dot_2, bias_2]
  rfl

/-- The bias of the third layer, broadcast down the rows. -/
theorem bias_3 (r : Fin 1048576) (j : Fin 12) :
    Read.val_main_v37 (F := Ideal) x8 (ix2 r j) = x8 (ix1 j) := by
  rw [Read.val_main_v37_apply, Read.val_main_v36_apply]
  exact congrArg x8 (funext fun a => Fin.ext (by match a with | ⟨0, _⟩ => rfl))

/-- The matrix product of the third layer read at row `r`: the inner product of row `r` of the stage before with a column of
    the weights. -/
theorem dot_3 (r : Fin 1048576) (j : Fin 12) :
    Read.val_main_v35 (F := Ideal) x0 x1 x2 x3 x4 x5 x6 x7 (ix2 r j)
      = ∑ k : Fin 16, Read.val_main_v34 (F := Ideal) x0 x1 x2 x3 x4 x5 x6 (ix2 r k) * x7 (ix2 k j) := by
  rw [Read.val_main_v35_apply]
  refine Finset.sum_congr rfl fun k _ => ?_
  rw [show Read.lidx_main_v35 (ix2 r j) k = ix2 r k from funext fun a => Fin.ext (by match a with | ⟨0, _⟩ => rfl | ⟨1, _⟩ => rfl),
    show Read.ridx_main_v35 (ix2 r j) k = ix2 k j from funext fun a => Fin.ext (by match a with | ⟨0, _⟩ => rfl | ⟨1, _⟩ => rfl)]

/-- Row `r` after the third layer is that layer applied to row `r` of the stage before. -/
theorem row_v39 (r : Fin 1048576) (h : Fin 16 → EReal)
    (hprev : (fun k => Read.val_main_v34 (F := Ideal) x0 x1 x2 x3 x4 x5 x6 (ix2 r k) : Fin 16 → EReal) = h) :
    (fun j => Read.val_main_v39 (F := Ideal) x0 x1 x2 x3 x4 x5 x6 x7 x8 (ix2 r j) : Fin 12 → EReal)
      = Cert.Spec.tanhLayer h (fun a j => x7 (ix2 a j)) (fun j => x8 (ix1 j)) := by
  subst hprev
  funext j
  rw [Read.val_main_v39_apply, Read.val_main_v38_apply, Ideal.hostUnary_tanh_def, Ideal.addf_def, dot_3, bias_3]
  rfl

/-- The bias of the fourth layer, broadcast down the rows. -/
theorem bias_4 (r : Fin 1048576) (j : Fin 8) :
    Read.val_main_v42 (F := Ideal) x10 (ix2 r j) = x10 (ix1 j) := by
  rw [Read.val_main_v42_apply, Read.val_main_v41_apply]
  exact congrArg x10 (funext fun a => Fin.ext (by match a with | ⟨0, _⟩ => rfl))

/-- The matrix product of the fourth layer read at row `r`: the inner product of row `r` of the stage before with a column of
    the weights. -/
theorem dot_4 (r : Fin 1048576) (j : Fin 8) :
    Read.val_main_v40 (F := Ideal) x0 x1 x2 x3 x4 x5 x6 x7 x8 x9 (ix2 r j)
      = ∑ k : Fin 12, Read.val_main_v39 (F := Ideal) x0 x1 x2 x3 x4 x5 x6 x7 x8 (ix2 r k) * x9 (ix2 k j) := by
  rw [Read.val_main_v40_apply]
  refine Finset.sum_congr rfl fun k _ => ?_
  rw [show Read.lidx_main_v40 (ix2 r j) k = ix2 r k from funext fun a => Fin.ext (by match a with | ⟨0, _⟩ => rfl | ⟨1, _⟩ => rfl),
    show Read.ridx_main_v40 (ix2 r j) k = ix2 k j from funext fun a => Fin.ext (by match a with | ⟨0, _⟩ => rfl | ⟨1, _⟩ => rfl)]

/-- Row `r` after the fourth layer is that layer applied to row `r` of the stage before. -/
theorem row_v44 (r : Fin 1048576) (h : Fin 12 → EReal)
    (hprev : (fun k => Read.val_main_v39 (F := Ideal) x0 x1 x2 x3 x4 x5 x6 x7 x8 (ix2 r k) : Fin 12 → EReal) = h) :
    (fun j => Read.val_main_v44 (F := Ideal) x0 x1 x2 x3 x4 x5 x6 x7 x8 x9 x10 (ix2 r j) : Fin 8 → EReal)
      = Cert.Spec.tanhLayer h (fun a j => x9 (ix2 a j)) (fun j => x10 (ix1 j)) := by
  subst hprev
  funext j
  rw [Read.val_main_v44_apply, Read.val_main_v43_apply, Ideal.hostUnary_tanh_def, Ideal.addf_def, dot_4, bias_4]
  rfl

/-- The bias of the fifth layer, broadcast down the rows. -/
theorem bias_5 (r : Fin 1048576) (j : Fin 4) :
    Read.val_main_v47 (F := Ideal) x12 (ix2 r j) = x12 (ix1 j) := by
  rw [Read.val_main_v47_apply, Read.val_main_v46_apply]
  exact congrArg x12 (funext fun a => Fin.ext (by match a with | ⟨0, _⟩ => rfl))

/-- The matrix product of the fifth layer read at row `r`: the inner product of row `r` of the stage before with a column of
    the weights. -/
theorem dot_5 (r : Fin 1048576) (j : Fin 4) :
    Read.val_main_v45 (F := Ideal) x0 x1 x2 x3 x4 x5 x6 x7 x8 x9 x10 x11 (ix2 r j)
      = ∑ k : Fin 8, Read.val_main_v44 (F := Ideal) x0 x1 x2 x3 x4 x5 x6 x7 x8 x9 x10 (ix2 r k) * x11 (ix2 k j) := by
  rw [Read.val_main_v45_apply]
  refine Finset.sum_congr rfl fun k _ => ?_
  rw [show Read.lidx_main_v45 (ix2 r j) k = ix2 r k from funext fun a => Fin.ext (by match a with | ⟨0, _⟩ => rfl | ⟨1, _⟩ => rfl),
    show Read.ridx_main_v45 (ix2 r j) k = ix2 k j from funext fun a => Fin.ext (by match a with | ⟨0, _⟩ => rfl | ⟨1, _⟩ => rfl)]

/-- Row `r` after the fifth layer is that layer applied to row `r` of the stage before. -/
theorem row_v49 (r : Fin 1048576) (h : Fin 8 → EReal)
    (hprev : (fun k => Read.val_main_v44 (F := Ideal) x0 x1 x2 x3 x4 x5 x6 x7 x8 x9 x10 (ix2 r k) : Fin 8 → EReal) = h) :
    (fun j => Read.val_main_v49 (F := Ideal) x0 x1 x2 x3 x4 x5 x6 x7 x8 x9 x10 x11 x12 (ix2 r j) : Fin 4 → EReal)
      = Cert.Spec.tanhLayer h (fun a j => x11 (ix2 a j)) (fun j => x12 (ix1 j)) := by
  subst hprev
  funext j
  rw [Read.val_main_v49_apply, Read.val_main_v48_apply, Ideal.hostUnary_tanh_def, Ideal.addf_def, dot_5, bias_5]
  rfl

/-- The bias of the sixth layer, broadcast down the rows. -/
theorem bias_6 (r : Fin 1048576) (j : Fin 4) :
    Read.val_main_v52 (F := Ideal) x14 (ix2 r j) = x14 (ix1 j) := by
  rw [Read.val_main_v52_apply, Read.val_main_v51_apply]
  exact congrArg x14 (funext fun a => Fin.ext (by match a with | ⟨0, _⟩ => rfl))

/-- The matrix product of the sixth layer read at row `r`: the inner product of row `r` of the stage before with a column of
    the weights. -/
theorem dot_6 (r : Fin 1048576) (j : Fin 4) :
    Read.val_main_v50 (F := Ideal) x0 x1 x2 x3 x4 x5 x6 x7 x8 x9 x10 x11 x12 x13 (ix2 r j)
      = ∑ k : Fin 4, Read.val_main_v49 (F := Ideal) x0 x1 x2 x3 x4 x5 x6 x7 x8 x9 x10 x11 x12 (ix2 r k) * x13 (ix2 k j) := by
  rw [Read.val_main_v50_apply]
  refine Finset.sum_congr rfl fun k _ => ?_
  rw [show Read.lidx_main_v50 (ix2 r j) k = ix2 r k from funext fun a => Fin.ext (by match a with | ⟨0, _⟩ => rfl | ⟨1, _⟩ => rfl),
    show Read.ridx_main_v50 (ix2 r j) k = ix2 k j from funext fun a => Fin.ext (by match a with | ⟨0, _⟩ => rfl | ⟨1, _⟩ => rfl)]

/-- Row `r` after the sixth layer is that layer applied to row `r` of the stage before. -/
theorem row_v54 (r : Fin 1048576) (h : Fin 4 → EReal)
    (hprev : (fun k => Read.val_main_v49 (F := Ideal) x0 x1 x2 x3 x4 x5 x6 x7 x8 x9 x10 x11 x12 (ix2 r k) : Fin 4 → EReal) = h) :
    (fun j => Read.val_main_v54 (F := Ideal) x0 x1 x2 x3 x4 x5 x6 x7 x8 x9 x10 x11 x12 x13 x14 (ix2 r j) : Fin 4 → EReal)
      = Cert.Spec.tanhLayer h (fun a j => x13 (ix2 a j)) (fun j => x14 (ix1 j)) := by
  subst hprev
  funext j
  rw [Read.val_main_v54_apply, Read.val_main_v53_apply, Ideal.hostUnary_tanh_def, Ideal.addf_def, dot_6, bias_6]
  rfl

/-- The bias of the seventh (the rectified one) layer, broadcast down the rows. -/
theorem bias_7 (r : Fin 1048576) (j : Fin 4) :
    Read.val_main_v57 (F := Ideal) x16 (ix2 r j) = x16 (ix1 j) := by
  rw [Read.val_main_v57_apply, Read.val_main_v56_apply]
  exact congrArg x16 (funext fun a => Fin.ext (by match a with | ⟨0, _⟩ => rfl))

/-- The matrix product of the seventh (the rectified one) layer read at row `r`: the inner product of row `r` of the stage before with a column of
    the weights. -/
theorem dot_7 (r : Fin 1048576) (j : Fin 4) :
    Read.val_main_v55 (F := Ideal) x0 x1 x2 x3 x4 x5 x6 x7 x8 x9 x10 x11 x12 x13 x14 x15 (ix2 r j)
      = ∑ k : Fin 4, Read.val_main_v54 (F := Ideal) x0 x1 x2 x3 x4 x5 x6 x7 x8 x9 x10 x11 x12 x13 x14 (ix2 r k) * x15 (ix2 k j) := by
  rw [Read.val_main_v55_apply]
  refine Finset.sum_congr rfl fun k _ => ?_
  rw [show Read.lidx_main_v55 (ix2 r j) k = ix2 r k from funext fun a => Fin.ext (by match a with | ⟨0, _⟩ => rfl | ⟨1, _⟩ => rfl),
    show Read.ridx_main_v55 (ix2 r j) k = ix2 k j from funext fun a => Fin.ext (by match a with | ⟨0, _⟩ => rfl | ⟨1, _⟩ => rfl)]

/-- The bias of the last layer, broadcast down the rows. -/
theorem bias_8 (r : Fin 1048576) :
    Read.val_main_v63 (F := Ideal) x18 (ix2 r (0 : Fin 1)) = x18 (ix1 (0 : Fin 1)) := by
  rw [Read.val_main_v63_apply, Read.val_main_v62_apply]
  exact congrArg x18 (funext fun a => Fin.ext (by match a with | ⟨0, _⟩ => rfl))

/-- The matrix product of the last layer read at row `r`: the inner product of row `r` of the stage before with a column of
    the weights. -/
theorem dot_8 (r : Fin 1048576) :
    Read.val_main_v61 (F := Ideal) x0 x1 x2 x3 x4 x5 x6 x7 x8 x9 x10 x11 x12 x13 x14 x15 x16 x17 (ix2 r (0 : Fin 1))
      = ∑ k : Fin 4, Read.val_main_v60 (F := Ideal) x0 x1 x2 x3 x4 x5 x6 x7 x8 x9 x10 x11 x12 x13 x14 x15 x16 (ix2 r k) * x17 (ix2 k (0 : Fin 1)) := by
  rw [Read.val_main_v61_apply]
  refine Finset.sum_congr rfl fun k _ => ?_
  rw [show Read.lidx_main_v61 (ix2 r (0 : Fin 1)) k = ix2 r k from funext fun a => Fin.ext (by match a with | ⟨0, _⟩ => rfl | ⟨1, _⟩ => rfl),
    show Read.ridx_main_v61 (ix2 r (0 : Fin 1)) k = ix2 k (0 : Fin 1) from funext fun a => Fin.ext (by match a with | ⟨0, _⟩ => rfl | ⟨1, _⟩ => rfl)]

/-- Row `r` after the rectified layer is added back to its input: the input plus the larger of the dense layer's value and
    zero. -/
theorem row_v60 (r : Fin 1048576) (h : Fin 4 → EReal)
    (hprev : (fun k => Read.val_main_v54 (F := Ideal) x0 x1 x2 x3 x4 x5 x6 x7 x8 x9 x10 x11 x12 x13 x14 (ix2 r k) : Fin 4 → EReal) = h) :
    (fun j => Read.val_main_v60 (F := Ideal) x0 x1 x2 x3 x4 x5 x6 x7 x8 x9 x10 x11 x12 x13 x14 x15 x16 (ix2 r j) : Fin 4 → EReal)
      = fun j => h j + max (Cert.Spec.dense h (fun a j => x15 (ix2 a j)) (fun j => x16 (ix1 j)) j) Cert.Spec.zero := by
  subst hprev
  funext j
  rw [Read.val_main_v60_apply, Read.val_main_v59_apply, Read.val_main_v58_apply, Read.val_main_call0_v0_apply,
    Read.val_main_call0_cst_apply, Ideal.addf_def, Ideal.addf_def, Ideal.maximumf_def, Ideal.ofBits_def, dot_7, bias_7]
  rfl

/-- The head at row `r`: one over one plus the exponential of the negated dense value is the logistic function of it. -/
theorem head_at (r : Fin 1048576) (h : Fin 4 → EReal)
    (hprev : (fun k => Read.val_main_v60 (F := Ideal) x0 x1 x2 x3 x4 x5 x6 x7 x8 x9 x10 x11 x12 x13 x14 x15 x16 (ix2 r k) : Fin 4 → EReal) = h) :
    Read.val_main_v70 (F := Ideal) x0 x1 x2 x3 x4 x5 x6 x7 x8 x9 x10 x11 x12 x13 x14 x15 x16 x17 x18 (ix2 r (0 : Fin 1))
      = Ideal.logistic (Cert.Spec.dense h (fun a j => x17 (ix2 a j)) (fun j => x18 (ix1 j)) 0) := by
  subst hprev
  rw [Read.val_main_v70_apply, Read.val_main_v69_apply, Read.val_main_cst_5_apply, Read.val_main_v68_apply,
    Read.val_main_v67_apply, Read.val_main_cst_4_apply, Read.val_main_v66_apply, Read.val_main_v65_apply,
    Read.val_main_v64_apply, Ideal.hostDivf_def, Ideal.addf_def, Ideal.addf_def, Ideal.hostUnary_exp_def,
    Ideal.hostNegf_def, Ideal.negf_def, Ideal.ofBits_def, Cert.Spec.ofBits_one, dot_8, bias_8]
  rfl

end Layers

/-! ## The whole network at one row -/

/-- The reference's result at row `r` is the network on that row of the batch, with the batch's mean and variance of
    deviations and the parameters read off the argument arrays. -/
theorem ref_row (x0 : (⟨S1048576x8, .f32⟩ : BufTy).Contents (Elt Ideal)) (x1 x2 : (⟨S8, .f32⟩ : BufTy).Contents (Elt Ideal)) (x3 : (⟨S8x16, .f32⟩ : BufTy).Contents (Elt Ideal)) (x4 : (⟨S16, .f32⟩ : BufTy).Contents (Elt Ideal))
    (x5 : (⟨S16x16, .f32⟩ : BufTy).Contents (Elt Ideal)) (x6 : (⟨S16, .f32⟩ : BufTy).Contents (Elt Ideal)) (x7 : (⟨S16x12, .f32⟩ : BufTy).Contents (Elt Ideal)) (x8 : (⟨S12, .f32⟩ : BufTy).Contents (Elt Ideal)) (x9 : (⟨S12x8, .f32⟩ : BufTy).Contents (Elt Ideal))
    (x10 : (⟨S8, .f32⟩ : BufTy).Contents (Elt Ideal)) (x11 : (⟨S8x4, .f32⟩ : BufTy).Contents (Elt Ideal)) (x12 : (⟨S4, .f32⟩ : BufTy).Contents (Elt Ideal)) (x13 : (⟨S4x4, .f32⟩ : BufTy).Contents (Elt Ideal)) (x14 : (⟨S4, .f32⟩ : BufTy).Contents (Elt Ideal))
    (x15 : (⟨S4x4, .f32⟩ : BufTy).Contents (Elt Ideal)) (x16 : (⟨S4, .f32⟩ : BufTy).Contents (Elt Ideal)) (x17 : (⟨S4x1, .f32⟩ : BufTy).Contents (Elt Ideal)) (x18 : (⟨S1, .f32⟩ : BufTy).Contents (Elt Ideal)) (r : Fin 1048576) :
    Cert.ReferenceIdeal.Read.val_main_v70 (F := Ideal) x0 x1 x2 x3 x4 x5 x6 x7 x8 x9 x10 x11 x12 x13 x14 x15 x16 x17 x18 (ix2 r (0 : Fin 1))
      = Cert.Spec.net (fun q => x0 (ix2 r q)) (Cert.Spec.mean fun r' q => x0 (ix2 r' q))
          (Cert.Spec.varOfDeviations fun r' q => x0 (ix2 r' q)) (fun q => x1 (ix1 q)) (fun q => x2 (ix1 q))
          (fun a j => x3 (ix2 a j)) (fun j => x4 (ix1 j)) (fun a j => x5 (ix2 a j)) (fun j => x6 (ix1 j))
          (fun a j => x7 (ix2 a j)) (fun j => x8 (ix1 j)) (fun a j => x9 (ix2 a j)) (fun j => x10 (ix1 j))
          (fun a j => x11 (ix2 a j)) (fun j => x12 (ix1 j)) (fun a j => x13 (ix2 a j)) (fun j => x14 (ix1 j))
          (fun a j => x15 (ix2 a j)) (fun j => x16 (ix1 j)) (fun a j => x17 (ix2 a j)) (fun j => x18 (ix1 j)) := by
  exact head_at x0 x1 x2 x3 x4 x5 x6 x7 x8 x9 x10 x11 x12 x13 x14 x15 x16 x17 x18 r _
    (row_v60 x0 x1 x2 x3 x4 x5 x6 x7 x8 x9 x10 x11 x12 x13 x14 x15 x16 r _
      (row_v54 x0 x1 x2 x3 x4 x5 x6 x7 x8 x9 x10 x11 x12 x13 x14 r _
        (row_v49 x0 x1 x2 x3 x4 x5 x6 x7 x8 x9 x10 x11 x12 r _
          (row_v44 x0 x1 x2 x3 x4 x5 x6 x7 x8 x9 x10 r _
            (row_v39 x0 x1 x2 x3 x4 x5 x6 x7 x8 r _
              (row_v34 x0 x1 x2 x3 x4 x5 x6 r _
                (row_v29 x0 x1 x2 x3 x4 r _ (row_v24 x0 x1 x2 r))))))))

end Cert.ReferenceIdeal.Row

end
-- ==== Proof.Law.lean ====
/-
  The two ways of computing a variance agree on finite data.

  For real numbers a_1 … a_N with mean μ = (∑ a_r) / N, expanding the square gives
  ∑ (a_r − μ)² = ∑ a_r² − 2 μ ∑ a_r + N μ² = ∑ a_r² − N μ², so dividing by N,
  (∑ (a_r − μ)²) / N = (∑ a_r²) / N − μ². The step N μ² uses that the divisor IS the number of terms: the batch has
  1048576 rows and the programs divide by the word for 2^20. On the extended reals the identity needs every entry to
  be a real number (with an infinite entry both sides are junk values of different kinds), which is what the
  precondition gives.
-/
import proofs.«148413_j65481071403406_1_alg».proof.Proof.Spec
import Mathlib.Algebra.BigOperators.Ring.Finset
import Mathlib.Data.Fintype.Card
import Mathlib.Tactic.FieldSimp
import Mathlib.Tactic.Ring

noncomputable section

namespace Cert.Spec

open Idealize.ShloMosaic

/-- A finite sum of real numbers, read in the extended reals, is the sum of the readings. -/
theorem coe_finsum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The variance identity over the reals, for any finite index type whose size is the divisor: the mean of the
    squares minus the square of the mean is the mean of the squared deviations. Means are written as products with
    the reciprocal of the divisor. -/
theorem real_var {ι : Type*} [Fintype ι] (a : ι → ℝ) (N : ℝ) (hN : N = (Fintype.card ι : ℝ)) (hN0 : N ≠ 0) :
    (∑ r, a r * a r) * (1 / N) - (∑ r, a r) * (1 / N) * ((∑ r, a r) * (1 / N))
      = (∑ r, (a r - (∑ s, a s) * (1 / N)) * (a r - (∑ s, a s) * (1 / N))) * (1 / N) := by
  generalize hS : (∑ s, a s) = S
  have hexp : ∀ r, (a r - S * (1 / N)) * (a r - S * (1 / N))
      = a r * a r - (2 * (S * (1 / N))) * a r + (S * (1 / N)) * (S * (1 / N)) := by
    intro r; ring
  simp only [hexp]
  rw [Finset.sum_add_distrib, Finset.sum_sub_distrib, ← Finset.mul_sum, hS, Finset.sum_const, Finset.card_univ,
    nsmul_eq_mul, ← hN]
  field_simp
  ring

/-- On a batch all of whose entries are real numbers, the mean of the squares minus the square of the mean is the
    mean of the squared deviations, feature by feature. -/
theorem var_eq (x : Fin 1048576 → Fin 8 → EReal) (hx : ∀ r q, ∃ a : ℝ, x r q = (a : EReal)) :
    varOfSquares x = varOfDeviations x := by
  choose a ha using hx
  have hxa : x = fun r q => (a r q : EReal) := funext fun r => funext fun q => ha r q
  subst hxa
  funext j
  have hN0 : (1048576 : ℝ) ≠ 0 := by norm_num
  have hcard : (1048576 : ℝ) = (Fintype.card (Fin 1048576) : ℝ) := by
    rw [Fintype.card_fin]; norm_cast
  unfold varOfSquares varOfDeviations mean colSum rows
  rw [ofBits_rows]
  simp only [Ideal.div_coe hN0]
  simp only [← EReal.coe_mul, ← coe_finsum, ← EReal.coe_sub]
  exact congrArg _ (real_var (fun r => a r j) 1048576 hcard hN0)

end Cert.Spec

end
-- ==== Proof.Finite.lean ====
/-
  The precondition says every input is finite; here: every entry of the batch `x` is a real number.

  The printed predicate takes |·| of each input, compares it with +∞ entry by entry, reduces each comparison with
  "and" over the whole array, and conjoins the nineteen results. Its value is the all-ones bit only if every
  conjunct is, so in particular |x i| < +∞ at every index i of the batch, and an extended real whose absolute value
  is below +∞ is neither infinity.
-/
import proofs.«148413_j65481071403406_1_alg».proof.Defs
import proofs.«148413_j65481071403406_1_alg».proof.Proof.Gen.Pre_finite_inputs
import Idealize.ShloMosaic.Lib.ReduceAll
import Idealize.ShloMosaic.Lib.ValueIdx

noncomputable section

namespace Cert.Finite

open Idealize.ShloMosaic Idealize.SL.Sem

/-- The scalar shape has one index. -/
instance subsingleton_scalar_idx : Subsingleton Cert.Pre_finite_inputs.S_.Idx :=
  ⟨fun a b => funext fun d => d.elim0⟩

/-- A pointwise "and" of two one-bit arrays that is 1 at an index has its left operand 1 there. -/
theorem andi_left {s : Shape} {x y : IVec s 1} {i : s.Idx} (h : andi x y i = 1#1) : x i = 1#1 :=
  (IntOp.andi_eq_one.1 h).1

/-- The word `0x7F800000` is +∞. -/
theorem ofBits_inf : Ideal.ofBits .f32 0x7F800000#32 = ⊤ := by simp [Ideal.ofBits, Ideal.ieee]

/-- An extended real whose absolute value max(x, −x) compares below +∞ is a real number: at −∞ the absolute value
    is +∞, at +∞ likewise, and +∞ < +∞ is false. -/
theorem real_of_abs_lt_inf (x : EReal)
    (h : Ideal.cmp .olt (max x (-x)) (Ideal.ofBits .f32 0x7F800000#32) = 1#1) : ∃ a : ℝ, x = (a : EReal) := by
  rw [ofBits_inf] at h
  induction x using EReal.rec with
  | bot => simp [Ideal.cmp] at h
  | top => simp [Ideal.cmp] at h
  | coe a => exact ⟨a, rfl⟩

open Cert.Pre_finite_inputs Cert.Pre_finite_inputs.Facts in
/-- The printed predicate being 1 makes every entry of its first argument a real number. The predicate is a
    left-nested conjunction of nineteen "all finite" bits, the first argument's the innermost: eighteen times the
    left component, then the reduction by "and" read back at an index, then the comparison at that index. -/
theorem fn_arg0_real [Cert.Pre_finite_inputs.Facts]
    (a0 : FVec Ideal S1048576x8 .f32) (a1 : FVec Ideal S8 .f32) (a2 : FVec Ideal S8 .f32)
    (a3 : FVec Ideal S8x16 .f32) (a4 : FVec Ideal S16 .f32) (a5 : FVec Ideal S16x16 .f32) (a6 : FVec Ideal S16 .f32)
    (a7 : FVec Ideal S16x12 .f32) (a8 : FVec Ideal S12 .f32) (a9 : FVec Ideal S12x8 .f32) (a10 : FVec Ideal S8 .f32)
    (a11 : FVec Ideal S8x4 .f32) (a12 : FVec Ideal S4 .f32) (a13 : FVec Ideal S4x4 .f32) (a14 : FVec Ideal S4 .f32)
    (a15 : FVec Ideal S4x4 .f32) (a16 : FVec Ideal S4 .f32) (a17 : FVec Ideal S4x1 .f32) (a18 : FVec Ideal S1 .f32)
    (h : Cert.Pre_finite_inputs.fn (F := Ideal) a0 a1 a2 a3 a4 a5 a6 a7 a8 a9 a10 a11 a12 a13 a14 a15 a16 a17 a18
      ValueIdx.ix0 = 1#1)
    (i : S1048576x8.Idx) : ∃ a : ℝ, a0 i = (a : EReal) := by
  dsimp only [Cert.Pre_finite_inputs.fn, fn_part1, fn_part2, fn_part3, fn_part4, fn_part5] at h
  -- eighteen conjunctions, left component each time
  have h := andi_left (andi_left (andi_left (andi_left (andi_left (andi_left h)))))
  have h := andi_left (andi_left (andi_left (andi_left (andi_left (andi_left h)))))
  have h := andi_left (andi_left (andi_left (andi_left (andi_left (andi_left h)))))
  -- the reduction over the whole batch, at the index i
  have hi := Host.reduce_andi_all _ _ _ _ _ h i
  exact real_of_abs_lt_inf (a0 i) hi

/-- Under the precondition, every entry of the batch is a real number, on every device. -/
theorem x_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1048576x8.Idx) :
    ∃ a : ℝ, m ((c.tc : Thread Cert.KernelIdeal.nD Cert.KernelIdeal.τ).loc Cert.KernelIdeal.main_arg0) i = (a : EReal) := by
  have h0 := congrFun (hpre c) ValueIdx.ix0
  exact fn_arg0_real _ _ _ _ _ _ _ _ _ _ _ _ _ _ _ _ _ _ _ h0 i

end Cert.Finite

end
-- ==== Proof.lean ====
/-
  A batch-normalised small network, as two streaming kernel regions, against its plain array formulation.

  The input is a batch of 1048576 rows of 8 features. The kernel program first streams the batch in 256 blocks of
  4096 rows, accumulating per feature the sum and the sum of squares; the host turns these into the mean and the
  variance (mean of the squares minus the square of the mean); a second streamed region then sends every row through
  the normalisation, six dense layers with tanh, a dense layer with a rectifier added back to its input, and a dense
  layer with the logistic function. The reference does the same on whole arrays, with the variance taken as the mean
  of the squared deviations from the mean.

  On the extended reals, with every operation exact and every change of float format the identity:
  * the first region's two results are the whole-batch column sums, because the blocks partition the rows and
    addition is commutative and associative (Stats);
  * the value the second region stores for a row is one function, `Spec.net`, of that row, the two statistics and the
    parameters (KernelRow), and its blocks partition the rows of the result, so the result array is that function row
    by row (KValue), over the statistics and parameters the host prepared (Mid);
  * the reference's result at a row is the same function of that row, its own statistics and the parameters (RefRow);
  * the two means are the same expression, and the two variances are equal whenever the batch is finite, since the
    divisor 2^20 is the number of rows (Law); the batch is finite by the precondition (Finite).
  The kernel's matrix products on reduced-precision copies and the reference's full-precision ones are the same sums
  here, and the logistic function is 1 / (1 + exp (−z)) on both sides. Nothing was rewritten by the idealization, so
  the word-level program's idealization claim is trivial, and the three frame claims are the generated frames and
  the reference's generated run.
-/
import proofs.«148413_j65481071403406_1_alg».proof.Defs
import proofs.«148413_j65481071403406_1_alg».proof.Proof.Gen.Kernel
import proofs.«148413_j65481071403406_1_alg».proof.Proof.Gen.Kernel.Skeleton
import proofs.«148413_j65481071403406_1_alg».proof.Proof.Gen.Kernel.Launch
import proofs.«148413_j65481071403406_1_alg».proof.Proof.Gen.Kernel.Points
import proofs.«148413_j65481071403406_1_alg».proof.Proof.Gen.Kernel.Frame
import proofs.«148413_j65481071403406_1_alg».proof.Proof.Gen.KernelIdeal
import proofs.«148413_j65481071403406_1_alg».proof.Proof.Gen.KernelIdeal.Skeleton
import proofs.«148413_j65481071403406_1_alg».proof.Proof.Gen.KernelIdeal.Launch
import proofs.«148413_j65481071403406_1_alg».proof.Proof.Gen.KernelIdeal.Points
import proofs.«148413_j65481071403406_1_alg».proof.Proof.Gen.KernelIdeal.Frame
import proofs.«148413_j65481071403406_1_alg».proof.Proof.Gen.ReferenceIdeal
import proofs.«148413_j65481071403406_1_alg».proof.Proof.Gen.Pre_finite_inputs
import proofs.«148413_j65481071403406_1_alg».proof.Proof.Gen.ReferenceIdeal.Run
import proofs.«148413_j65481071403406_1_alg».proof.Proof.Gen.ReferenceIdeal.Read
import proofs.«148413_j65481071403406_1_alg».proof.Proof.KRun
import proofs.«148413_j65481071403406_1_alg».proof.Proof.KValue
import proofs.«148413_j65481071403406_1_alg».proof.Proof.Mid
import proofs.«148413_j65481071403406_1_alg».proof.Proof.RefRow
import proofs.«148413_j65481071403406_1_alg».proof.Proof.Law
import proofs.«148413_j65481071403406_1_alg».proof.Proof.Finite
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of array operations: it runs, and touches no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments and a finite batch, both programs end with the
    same result: at every row, the network on that row with the batch's mean and variance. -/
theorem algebraic : Cert.algebraic_KernelIdeal_ReferenceIdeal := by
  intro m ρ m' ρ' hpre hagree
  refine ⟨fun c => Cert.KernelIdeal.KValue.result (Cert.KernelIdeal.Gen.V2 m ρ) c, ?_, ?_⟩
  · exact (θ_run Cert.KernelIdeal.defs _ _).mono
      (fun r h c => ⟨(h c).1.trans (Cert.KernelIdeal.KValue.final (Cert.KernelIdeal.Gen.V2 m ρ) c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v70_eq]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    funext i
    obtain ⟨r, z, rfl⟩ : ∃ (r : Fin 1048576) (z : Fin 1), i = ix2 r z := ⟨i 0, i 1, eq_ix2 i⟩
    obtain rfl : z = 0 := Subsingleton.elim _ _
    refine (Cert.ReferenceIdeal.Row.ref_row _ _ _ _ _ _ _ _ _ _ _ _ _ _ _ _ _ _ _ r).trans ?_
    refine Eq.trans ?_ (Cert.KernelIdeal.Mid.rowNet_entry m ρ c r).symm
    rw [Cert.Spec.var_eq (Cert.KernelIdeal.Mid.X m c) (fun r' q => Cert.Finite.x_real m hpre c (ix2 r' q))]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
